-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v61)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v61) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v90) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S2x800000 : Shape := ⟨2, ![2, 800000]⟩
abbrev S128x128 : Shape := ⟨2, ![128, 128]⟩
abbrev S128 : Shape := ⟨1, ![128]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_

variable [Facts]

def fn_part1 {F : FTy → Type} [FloatOps F] (main_arg5 : FVec F S128 .f32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S128 .f32 := Host.absf main_arg5
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  main_v23

def fn {F : FTy → Type} [FloatOps F] (main_arg0 : FVec F S50000x128 .f32) (main_arg1 : IVec S2x800000 32) (main_arg2 : FVec F S128x128 .f32) (main_arg3 : FVec F S128 .f32) (main_arg4 : FVec F S128x128 .f32) (main_arg5 : FVec F S128 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S128x128 .f32 := Host.absf main_arg2
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg3
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x128 .f32 := Host.absf main_arg4
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg5 main_v13 main_v16
-- ==== Kernel.lean ====
abbrev S50000x128 : Shape := ⟨2, ![50000, 128]⟩
abbrev S2x800000 : Shape := ⟨2, ![2, 800000]⟩
abbrev S128x128 : Shape := ⟨2, ![128, 128]⟩
abbrev S128 : Shape := ⟨1, ![128]⟩
abbrev S1x800000 : Shape := ⟨2, ![1, 800000]⟩
abbrev S800000 : Shape := ⟨1, ![800000]⟩
abbrev S50000 : Shape := ⟨1, ![50000]⟩
abbrev S850000 : Shape := ⟨1, ![850000]⟩
abbrev S_ : Shape := ⟨0, ![]⟩
abbrev S850000x1 : Shape := ⟨2, ![850000, 1]⟩
abbrev S2000x128 : Shape := ⟨2, ![2000, 128]⟩
abbrev S850000x128 : Shape := ⟨2, ![850000, 128]⟩
abbrev S1x128 : Shape := ⟨2, ![1, 128]⟩

abbrev nBuf : Space → Nat
  | .hbm => 84
  | .vmem => 20
  | .smem => 0
  | _ => 0

abbrev bufTy : (tb : Table) → Fin (tcTables nBuf tb) → BufTy
  | .hbm, ⟨0, _⟩ => ⟨S50000x128, .f32⟩
  | .hbm, ⟨1, _⟩ => ⟨S2x800000, .i32⟩
  | .hbm, ⟨2, _⟩ => ⟨S128x128, .f32⟩
  | .hbm, ⟨3, _⟩ => ⟨S128, .f32⟩
  | .hbm, ⟨4, _⟩ => ⟨S128x128, .f32⟩
  | .hbm, ⟨5, _⟩ => ⟨S128, .f32⟩
  | .hbm, ⟨6, _⟩ => ⟨S1x800000, .i32⟩
  | .hbm, ⟨7, _⟩ => ⟨S800000, .i32⟩
  | .hbm, ⟨8, _⟩ => ⟨S1x800000, .i32⟩
  | .hbm, ⟨9, _⟩ => ⟨S800000, .i32⟩
  | .hbm, ⟨10, _⟩ => ⟨S50000, .i32⟩
  | .hbm, ⟨11, _⟩ => ⟨S850000, .i32⟩
  | .hbm, ⟨12, _⟩ => ⟨S850000, .i32⟩
  | .hbm, ⟨13, _⟩ => ⟨S_, .f32⟩
  | .hbm, ⟨14, _⟩ => ⟨S850000, .f32⟩
  | .hbm, ⟨15, _⟩ => ⟨S_, .f32⟩
  | .hbm, ⟨16, _⟩ => ⟨S50000, .f32⟩
  | .hbm, ⟨17, _⟩ => ⟨S850000x1, .i32⟩
  | .hbm, ⟨18, _⟩ => ⟨S50000, .f32⟩
  | .hbm, ⟨19, _⟩ => ⟨S_, .f32⟩
  | .hbm, ⟨20, _⟩ => ⟨S50000, .f32⟩
  | .hbm, ⟨21, _⟩ => ⟨S50000, .i1⟩
  | .hbm, ⟨22, _⟩ => ⟨S50000, .f32⟩
  | .hbm, ⟨23, _⟩ => ⟨S_, .f32⟩
  | .hbm, ⟨24, _⟩ => ⟨S_, .f32⟩
  | .hbm, ⟨25, _⟩ => ⟨S50000, .f32⟩
  | .hbm, ⟨26, _⟩ => ⟨S50000, .f32⟩
  | .hbm, ⟨27, _⟩ => ⟨S_, .i32⟩
  | .hbm, ⟨28, _⟩ => ⟨S850000, .i32⟩
  | .hbm, ⟨29, _⟩ => ⟨S850000, .i1⟩
  | .hbm, ⟨30, _⟩ => ⟨S_, .i32⟩
  | .hbm, ⟨31, _⟩ => ⟨S850000, .i32⟩
  | .hbm, ⟨32, _⟩ => ⟨S850000, .i32⟩
  | .hbm, ⟨33, _⟩ => ⟨S850000, .i32⟩
  | .hbm, ⟨34, _⟩ => ⟨S850000x1, .i32⟩
  | .hbm, ⟨35, _⟩ => ⟨S850000, .f32⟩
  | .hbm, ⟨36, _⟩ => ⟨S_, .i32⟩
  | .hbm, ⟨37, _⟩ => ⟨S850000, .i32⟩
  | .hbm, ⟨38, _⟩ => ⟨S850000, .i1⟩
  | .hbm, ⟨39, _⟩ => ⟨S_, .i32⟩
  | .hbm, ⟨40, _⟩ => ⟨S850000, .i32⟩
  | .hbm, ⟨41, _⟩ => ⟨S850000, .i32⟩
  | .hbm, ⟨42, _⟩ => ⟨S850000, .i32⟩
  | .hbm, ⟨43, _⟩ => ⟨S850000x1, .i32⟩
  | .hbm, ⟨44, _⟩ => ⟨S850000, .f32⟩
  | .hbm, ⟨45, _⟩ => ⟨S850000, .f32⟩
  | .hbm, ⟨46, _⟩ => ⟨S50000x128, .f32⟩
  | .hbm, ⟨47, _⟩ => ⟨S_, .i32⟩
  | .hbm, ⟨48, _⟩ => ⟨S850000, .i32⟩
  | .hbm, ⟨49, _⟩ => ⟨S850000, .i1⟩
  | .hbm, ⟨50, _⟩ => ⟨S_, .i32⟩
  | .hbm, ⟨51, _⟩ => ⟨S850000, .i32⟩
  | .hbm, ⟨52, _⟩ => ⟨S850000, .i32⟩
  | .hbm, ⟨53, _⟩ => ⟨S850000, .i32⟩
  | .hbm, ⟨54, _⟩ => ⟨S850000x1, .i32⟩
  | .hbm, ⟨55, _⟩ => ⟨S850000x128, .f32⟩
  | .hbm, ⟨56, _⟩ => ⟨S850000x1, .f32⟩
  | .hbm, ⟨57, _⟩ => ⟨S850000x128, .f32⟩
  | .hbm, ⟨58, _⟩ => ⟨S850000x128, .f32⟩
  | .hbm, ⟨59, _⟩ => ⟨S_, .f32⟩
  | .hbm, ⟨60, _⟩ => ⟨S50000x128, .f32⟩
  | .hbm, ⟨61, _⟩ => ⟨S850000x1, .i32⟩
  | .hbm, ⟨62, _⟩ => ⟨S50000x128, .f32⟩
  | .hbm, ⟨63, _⟩ => ⟨S1x128, .f32⟩
  | .hbm, ⟨64, _⟩ => ⟨S50000x128, .f32⟩
  | .hbm, ⟨65, _⟩ => ⟨S50000x128, .f32⟩
  | .hbm, ⟨66, _⟩ => ⟨S_, .i32⟩
  | .hbm, ⟨67, _⟩ => ⟨S850000, .i32⟩
  | .hbm, ⟨68, _⟩ => ⟨S850000, .i1⟩
  | .hbm, ⟨69, _⟩ => ⟨S_, .i32⟩
  | .hbm, ⟨70, _⟩ => ⟨S850000, .i32⟩
  | .hbm, ⟨71, _⟩ => ⟨S850000, .i32⟩
  | .hbm, ⟨72, _⟩ => ⟨S850000, .i32⟩
  | .hbm, ⟨73, _⟩ => ⟨S850000x1, .i32⟩
  | .hbm, ⟨74, _⟩ => ⟨S850000x128, .f32⟩
  | .hbm, ⟨75, _⟩ => ⟨S850000x1, .f32⟩
  | .hbm, ⟨76, _⟩ => ⟨S850000x128, .f32⟩
  | .hbm, ⟨77, _⟩ => ⟨S850000x128, .f32⟩
  | .hbm, ⟨78, _⟩ => ⟨S_, .f32⟩
  | .hbm, ⟨79, _⟩ => ⟨S50000x128, .f32⟩
  | .hbm, ⟨80, _⟩ => ⟨S850000x1, .i32⟩
  | .hbm, ⟨81, _⟩ => ⟨S50000x128, .f32⟩
  | .hbm, ⟨82, _⟩ => ⟨S1x128, .f32⟩
  | .hbm, ⟨83, _⟩ => ⟨S50000x128, .f32⟩
  | .local _ .vmem, ⟨0, _⟩ => ⟨S2000x128, .f32⟩
  | .local _ .vmem, ⟨1, _⟩ => ⟨S2000x128, .f32⟩
  | .local _ .vmem, ⟨2, _⟩ => ⟨S128x128, .f32⟩
  | .local _ .vmem, ⟨3, _⟩ => ⟨S2000x128, .f32⟩
  | .local _ .vmem, ⟨4, _⟩ => ⟨S2000x128, .f32⟩
  | .local _ .vmem, ⟨5, _⟩ => ⟨S2000x128, .f32⟩
  | .local _ .vmem, ⟨6, _⟩ => ⟨S2000x128, .f32⟩
  | .local _ .vmem, ⟨7, _⟩ => ⟨S1x128, .f32⟩
  | .local _ .vmem, ⟨8, _⟩ => ⟨S2000x128, .f32⟩
  | .local _ .vmem, ⟨9, _⟩ => ⟨S2000x128, .f32⟩
  | .local _ .vmem, ⟨10, _⟩ => ⟨S2000x128, .f32⟩
  | .local _ .vmem, ⟨11, _⟩ => ⟨S2000x128, .f32⟩
  | .local _ .vmem, ⟨12, _⟩ => ⟨S128x128, .f32⟩
  | .local _ .vmem, ⟨13, _⟩ => ⟨S2000x128, .f32⟩
  | .local _ .vmem, ⟨14, _⟩ => ⟨S2000x128, .f32⟩
  | .local _ .vmem, ⟨15, _⟩ => ⟨S2000x128, .f32⟩
  | .local _ .vmem, ⟨16, _⟩ => ⟨S2000x128, .f32⟩
  | .local _ .vmem, ⟨17, _⟩ => ⟨S1x128, .f32⟩
  | .local _ .vmem, ⟨18, _⟩ => ⟨S2000x128, .f32⟩
  | .local _ .vmem, ⟨19, _⟩ => ⟨S2000x128, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst : Ref sig .tc := ⟨.hbm, 13, rfl⟩
abbrev main_v7 : Ref sig .tc := ⟨.hbm, 14, rfl⟩
abbrev main_cst_0 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_1 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst_2 : Ref sig .tc := ⟨.hbm, 23, rfl⟩
abbrev main_call0_v0 : Ref sig .tc := ⟨.hbm, 24, rfl⟩
abbrev main_call0_v1 : Ref sig .tc := ⟨.hbm, 25, rfl⟩
abbrev main_v14 : Ref sig .tc := ⟨.hbm, 26, rfl⟩
abbrev main_c : Ref sig .tc := ⟨.hbm, 27, rfl⟩
abbrev main_v15 : Ref sig .tc := ⟨.hbm, 28, rfl⟩
abbrev main_v16 : Ref sig .tc := ⟨.hbm, 29, rfl⟩
abbrev main_c_3 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_c_4 : Ref sig .tc := ⟨.hbm, 36, rfl⟩
abbrev main_v22 : Ref sig .tc := ⟨.hbm, 37, rfl⟩
abbrev main_v23 : Ref sig .tc := ⟨.hbm, 38, rfl⟩
abbrev main_c_5 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_c_6 : Ref sig .tc := ⟨.hbm, 47, rfl⟩
abbrev main_v31 : Ref sig .tc := ⟨.hbm, 48, rfl⟩
abbrev main_v32 : Ref sig .tc := ⟨.hbm, 49, rfl⟩
abbrev main_c_7 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_cst_8 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_c_9 : Ref sig .tc := ⟨.hbm, 66, rfl⟩
abbrev main_v47 : Ref sig .tc := ⟨.hbm, 67, rfl⟩
abbrev main_v48 : Ref sig .tc := ⟨.hbm, 68, rfl⟩
abbrev main_c_10 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_v52 : Ref sig .tc := ⟨.hbm, 73, rfl⟩
abbrev main_v53 : Ref sig .tc := ⟨.hbm, 74, rfl⟩
abbrev main_v54 : Ref sig .tc := ⟨.hbm, 75, rfl⟩
abbrev main_v55 : Ref sig .tc := ⟨.hbm, 76, rfl⟩
abbrev main_v56 : Ref sig .tc := ⟨.hbm, 77, rfl⟩
abbrev main_cst_11 : Ref sig .tc := ⟨.hbm, 78, rfl⟩
abbrev main_v57 : Ref sig .tc := ⟨.hbm, 79, rfl⟩
abbrev main_v58 : Ref sig .tc := ⟨.hbm, 80, rfl⟩
abbrev main_v59 : Ref sig .tc := ⟨.hbm, 81, rfl⟩
abbrev main_v60 : Ref sig .tc := ⟨.hbm, 82, rfl⟩
abbrev main_v61 : Ref sig .tc := ⟨.hbm, 83, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc2_stg0_0 : Ref sig .tc := ⟨.vmem, 10, rfl⟩
abbrev cc2_stg0_1 : Ref sig .tc := ⟨.vmem, 11, rfl⟩
abbrev cc2_stg1_0 : Ref sig .tc := ⟨.vmem, 12, rfl⟩
abbrev cc2_stg2_0 : Ref sig .tc := ⟨.vmem, 13, rfl⟩
abbrev cc2_stg2_1 : Ref sig .tc := ⟨.vmem, 14, rfl⟩
abbrev cc3_stg0_0 : Ref sig .tc := ⟨.vmem, 15, rfl⟩
abbrev cc3_stg0_1 : Ref sig .tc := ⟨.vmem, 16, rfl⟩
abbrev cc3_stg1_0 : Ref sig .tc := ⟨.vmem, 17, rfl⟩
abbrev cc3_stg2_0 : Ref sig .tc := ⟨.vmem, 18, rfl⟩
abbrev cc3_stg2_1 : Ref sig .tc := ⟨.vmem, 19, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9
abbrev cc2_sem0_0 : DmaSem sig := 10
abbrev cc2_sem0_1 : DmaSem sig := 11
abbrev cc2_sem1_0 : DmaSem sig := 12
abbrev cc2_sem2_0 : DmaSem sig := 13
abbrev cc2_sem2_1 : DmaSem sig := 14
abbrev cc3_sem0_0 : DmaSem sig := 15
abbrev cc3_sem0_1 : DmaSem sig := 16
abbrev cc3_sem1_0 : DmaSem sig := 17
abbrev cc3_sem2_0 : DmaSem sig := 18
abbrev cc3_sem2_1 : DmaSem sig := 19

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S2000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![25], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S2000x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨1, ![25], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S2000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S128x128 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S2000x128 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev grid3 : Pipeline.Grid := ⟨1, ![25], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S2000x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S1x128 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 2 → Memref sig .tc .vmem S2000x128 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  concatenates_S800000_S50000_S850000_d0 : Shape.Concatenates [S800000, S50000] S850000 0
  bcast_S_S850000 : S_.BroadcastsInDim S850000 (![] : Fin 0 → Fin S850000.rank)
  bcast_S_S50000 : S_.BroadcastsInDim S50000 (![] : Fin 0 → Fin S50000.rank)
  bcast_S850000_S850000x1_0 : S850000.BroadcastsInDim S850000x1 (![0] : Fin 1 → Fin S850000x1.rank)
  inb_S2000x128_S2000x128_0_0 : ∀ a, (![0, 0] : Fin 2 → Nat) a + S2000x128.size a ≤ S2000x128.size a
  h_S2000x128 : 0 < S2000x128.numel
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  bcast_S850000x1_S850000x128_0_1 : S850000x1.BroadcastsInDim S850000x128 (![0, 1] : Fin 2 → Fin S850000x128.rank)
  bcast_S_S50000x128 : S_.BroadcastsInDim S50000x128 (![] : Fin 0 → Fin S50000x128.rank)
  shapeCasts_S128_S1x128 : S128.ShapeCasts S1x128
  shapeCasts_S2000x128_S2000x128 : S2000x128.ShapeCasts S2000x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S2000x128 : S1x128.Broadcasts S2000x128
  scatter_S50000_S850000x1_S850000_n_0_0_1_wf : ScatterDims.WF S50000 S850000x1 S850000 [] [0] [0] 1
  gather_S50000_S850000x1_S850000_n_0_n_n_0_1_1_wf : GatherDims.WF S50000 S850000x1 S850000 [] [0] [] [0] [] 1 ![1]
  dot_S2000x128_S128x128_S2000x128_1_0_0_1_n_n_wf : DotDims.WF S2000x128 S128x128 S2000x128 [1] [0] [0] [1] [] []
  gather_S50000x128_S850000x1_S850000x128_1_0_n_n_0_1_1128_wf : GatherDims.WF S50000x128 S850000x1 S850000x128 [1] [0] [] [0] [] 1 ![1, 128]
  scatter_S50000x128_S850000x1_S850000x128_1_0_0_1_wf : ScatterDims.WF S50000x128 S850000x1 S850000x128 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x128.size a ≤ S50000x128.size a
  hwx0_0 : ∀ i : grid0.Coords, EltTy.bits .f32 = 32 ∨ (Rect.block (s := S50000x128) S2000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2000x128.size a ≤ S50000x128.size a
  hwx0_2 : ∀ i : grid0.Coords, EltTy.bits .f32 = 32 ∨ (Rect.block (s := S50000x128) S2000x128.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x128.size a ≤ S50000x128.size a
  hwx1_0 : ∀ i : grid1.Coords, EltTy.bits .f32 = 32 ∨ (Rect.block (s := S50000x128) S2000x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x128.size a ≤ S1x128.size a
  hwx1_1 : ∀ i : grid1.Coords, EltTy.bits .f32 = 32 ∨ (Rect.block (s := S1x128) S1x128.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S2000x128.size a ≤ S50000x128.size a
  hwx1_2 : ∀ i : grid1.Coords, EltTy.bits .f32 = 32 ∨ (Rect.block (s := S50000x128) S2000x128.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S2000x128.size a ≤ S50000x128.size a
  hwx2_0 : ∀ i : grid2.Coords, EltTy.bits .f32 = 32 ∨ (Rect.block (s := S50000x128) S2000x128.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S128x128.size a ≤ S128x128.size a
  hwx2_1 : ∀ i : grid2.Coords, EltTy.bits .f32 = 32 ∨ (Rect.block (s := S128x128) S128x128.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S2000x128.size a ≤ S50000x128.size a
  hwx2_2 : ∀ i : grid2.Coords, EltTy.bits .f32 = 32 ∨ (Rect.block (s := S50000x128) S2000x128.size (cc2_transform_2 i) (hinb2_2 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S2000x128.size a ≤ S50000x128.size a
  hwx3_0 : ∀ i : grid3.Coords, EltTy.bits .f32 = 32 ∨ (Rect.block (s := S50000x128) S2000x128.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S1x128.size a ≤ S1x128.size a
  hwx3_1 : ∀ i : grid3.Coords, EltTy.bits .f32 = 32 ∨ (Rect.block (s := S1x128) S1x128.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S2000x128.size a ≤ S50000x128.size a
  hwx3_2 : ∀ i : grid3.Coords, EltTy.bits .f32 = 32 ∨ (Rect.block (s := S50000x128) S2000x128.size (cc3_transform_2 i) (hinb3_2 i)).WholeWords (EltTy.packing .f32)

variable [Facts₀]

def scatter_S50000_S850000x1_S850000_n_0_0_1 : ScatterDims S50000 S850000x1 S850000 where
  updateWindowDims := []
  insertedWindowDims := [0]
  scatterDimsToOperandDims := [0]
  indexVectorDim := 1
  wf := scatter_S50000_S850000x1_S850000_n_0_0_1_wf
def gather_S50000_S850000x1_S850000_n_0_n_n_0_1_1 : GatherDims S50000 S850000x1 S850000 where
  offsetDims := []
  collapsedSliceDims := [0]
  operandBatchingDims := []
  startIndicesBatchingDims := []
  startIndexMap := [0]
  indexVectorDim := 1
  sliceSizes := ![1]
  wf := gather_S50000_S850000x1_S850000_n_0_n_n_0_1_1_wf
def dot_S2000x128_S128x128_S2000x128_1_0_0_1_n_n : DotDims S2000x128 S128x128 S2000x128 where
  lhsContracting := [1]
  rhsContracting := [0]
  lhsNonContracting := [0]
  rhsNonContracting := [1]
  lhsBatch := []
  rhsBatch := []
  wf := dot_S2000x128_S128x128_S2000x128_1_0_0_1_n_n_wf
def gather_S50000x128_S850000x1_S850000x128_1_0_n_n_0_1_1128 : GatherDims S50000x128 S850000x1 S850000x128 where
  offsetDims := [1]
  collapsedSliceDims := [0]
  operandBatchingDims := []
  startIndicesBatchingDims := []
  startIndexMap := [0]
  indexVectorDim := 1
  sliceSizes := ![1, 128]
  wf := gather_S50000x128_S850000x1_S850000x128_1_0_n_n_0_1_1128_wf
def scatter_S50000x128_S850000x1_S850000x128_1_0_0_1 : ScatterDims S50000x128 S850000x1 S850000x128 where
  updateWindowDims := [1]
  insertedWindowDims := [0]
  scatterDimsToOperandDims := [0]
  indexVectorDim := 1
  wf := scatter_S50000x128_S850000x1_S850000x128_1_0_0_1_wf

abbrev win0_0 : Pipeline.Window sig grid0 :=
  Pipeline.Window.ofSpec (Memref.whole main_arg0) S2000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v30) S2000x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v43) S2000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v44) S1x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v45) S2000x128.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_v45) S2000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg4) S128x128.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v46) S2000x128.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev win3_0 : Pipeline.Window sig grid3 :=
  Pipeline.Window.ofSpec (Memref.whole main_v59) S2000x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v60) S1x128.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v61) S2000x128.size cc3_transform_2 reads3_2 true false 2 stage3_2 sem3_2
    hrank3 hreads3_2 hinb3_2 nbuf3_2 (Memref.isWhole_whole _) hwx3_2 hstage3_2

abbrev win3 : Fin 3 → Pipeline.Window sig grid3 := fun | 0 => win3_0 | 1 => win3_1 | 2 => win3_2 | ⟨_ + 3, h⟩ => absurd h (Nat.not_lt.2 (Nat.le_add_left _ _))
abbrev spec3 : Fin 3 → Pipeline.WinSpec sig grid3.rank := fun w => (win3 w).toWinSpec

class Facts : Prop extends Facts₀ where

variable [Facts]
-- ==== ReferenceIdeal.lean ====
abbrev S50000x128 : Shape := ⟨2, ![50000, 128]⟩
abbrev S2x800000 : Shape := ⟨2, ![2, 800000]⟩
abbrev S128x128 : Shape := ⟨2, ![128, 128]⟩
abbrev S128 : Shape := ⟨1, ![128]⟩
abbrev S1x800000 : Shape := ⟨2, ![1, 800000]⟩
abbrev S800000 : Shape := ⟨1, ![800000]⟩
abbrev S50000 : Shape := ⟨1, ![50000]⟩
abbrev S850000 : Shape := ⟨1, ![850000]⟩
abbrev S_ : Shape := ⟨0, ![]⟩
abbrev S850000x1 : Shape := ⟨2, ![850000, 1]⟩
abbrev S850000x128 : Shape := ⟨2, ![850000, 128]⟩
abbrev S1x128 : Shape := ⟨2, ![1, 128]⟩

abbrev nBuf : Space → Nat
  | .hbm => 125
  | .vmem => 0
  | .smem => 0
  | _ => 0

abbrev bufTy : (tb : Table) → Fin (tcTables nBuf tb) → BufTy
  | .hbm, ⟨0, _⟩ => ⟨S50000x128, .f32⟩
  | .hbm, ⟨1, _⟩ => ⟨S2x800000, .i32⟩
  | .hbm, ⟨2, _⟩ => ⟨S128x128, .f32⟩
  | .hbm, ⟨3, _⟩ => ⟨S128, .f32⟩
  | .hbm, ⟨4, _⟩ => ⟨S128x128, .f32⟩
  | .hbm, ⟨5, _⟩ => ⟨S128, .f32⟩
  | .hbm, ⟨6, _⟩ => ⟨S1x800000, .i32⟩
  | .hbm, ⟨7, _⟩ => ⟨S800000, .i32⟩
  | .hbm, ⟨8, _⟩ => ⟨S1x800000, .i32⟩
  | .hbm, ⟨9, _⟩ => ⟨S800000, .i32⟩
  | .hbm, ⟨10, _⟩ => ⟨S50000x128, .f32⟩
  | .hbm, ⟨11, _⟩ => ⟨S50000, .i32⟩
  | .hbm, ⟨12, _⟩ => ⟨S850000, .i32⟩
  | .hbm, ⟨13, _⟩ => ⟨S850000, .i32⟩
  | .hbm, ⟨14, _⟩ => ⟨S_, .f32⟩
  | .hbm, ⟨15, _⟩ => ⟨S850000, .f32⟩
  | .hbm, ⟨16, _⟩ => ⟨S_, .f32⟩
  | .hbm, ⟨17, _⟩ => ⟨S50000, .f32⟩
  | .hbm, ⟨18, _⟩ => ⟨S850000x1, .i32⟩
  | .hbm, ⟨19, _⟩ => ⟨S50000, .f32⟩
  | .hbm, ⟨20, _⟩ => ⟨S_, .f32⟩
  | .hbm, ⟨21, _⟩ => ⟨S50000, .f32⟩
  | .hbm, ⟨22, _⟩ => ⟨S50000, .i1⟩
  | .hbm, ⟨23, _⟩ => ⟨S50000, .f32⟩
  | .hbm, ⟨24, _⟩ => ⟨S_, .f32⟩
  | .hbm, ⟨25, _⟩ => ⟨S_, .f32⟩
  | .hbm, ⟨26, _⟩ => ⟨S50000, .f32⟩
  | .hbm, ⟨27, _⟩ => ⟨S50000, .f32⟩
  | .hbm, ⟨28, _⟩ => ⟨S_, .i32⟩
  | .hbm, ⟨29, _⟩ => ⟨S850000, .i32⟩
  | .hbm, ⟨30, _⟩ => ⟨S850000, .i1⟩
  | .hbm, ⟨31, _⟩ => ⟨S_, .i32⟩
  | .hbm, ⟨32, _⟩ => ⟨S850000, .i32⟩
  | .hbm, ⟨33, _⟩ => ⟨S850000, .i32⟩
  | .hbm, ⟨34, _⟩ => ⟨S850000, .i32⟩
  | .hbm, ⟨35, _⟩ => ⟨S850000x1, .i32⟩
  | .hbm, ⟨36, _⟩ => ⟨S850000, .f32⟩
  | .hbm, ⟨37, _⟩ => ⟨S_, .i32⟩
  | .hbm, ⟨38, _⟩ => ⟨S850000, .i32⟩
  | .hbm, ⟨39, _⟩ => ⟨S850000, .i1⟩
  | .hbm, ⟨40, _⟩ => ⟨S_, .i32⟩
  | .hbm, ⟨41, _⟩ => ⟨S850000, .i32⟩
  | .hbm, ⟨42, _⟩ => ⟨S850000, .i32⟩
  | .hbm, ⟨43, _⟩ => ⟨S850000, .i32⟩
  | .hbm, ⟨44, _⟩ => ⟨S850000x1, .i32⟩
  | .hbm, ⟨45, _⟩ => ⟨S850000, .f32⟩
  | .hbm, ⟨46, _⟩ => ⟨S850000, .f32⟩
  | .hbm, ⟨47, _⟩ => ⟨S_, .i32⟩
  | .hbm, ⟨48, _⟩ => ⟨S850000, .i32⟩
  | .hbm, ⟨49, _⟩ => ⟨S850000, .i1⟩
  | .hbm, ⟨50, _⟩ => ⟨S_, .i32⟩
  | .hbm, ⟨51, _⟩ => ⟨S850000, .i32⟩
  | .hbm, ⟨52, _⟩ => ⟨S850000, .i32⟩
  | .hbm, ⟨53, _⟩ => ⟨S850000, .i32⟩
  | .hbm, ⟨54, _⟩ => ⟨S850000x1, .i32⟩
  | .hbm, ⟨55, _⟩ => ⟨S850000x128, .f32⟩
  | .hbm, ⟨56, _⟩ => ⟨S850000x1, .f32⟩
  | .hbm, ⟨57, _⟩ => ⟨S850000x128, .f32⟩
  | .hbm, ⟨58, _⟩ => ⟨S850000x128, .f32⟩
  | .hbm, ⟨59, _⟩ => ⟨S_, .f32⟩
  | .hbm, ⟨60, _⟩ => ⟨S50000x128, .f32⟩
  | .hbm, ⟨61, _⟩ => ⟨S850000x1, .i32⟩
  | .hbm, ⟨62, _⟩ => ⟨S50000x128, .f32⟩
  | .hbm, ⟨63, _⟩ => ⟨S1x128, .f32⟩
  | .hbm, ⟨64, _⟩ => ⟨S50000x128, .f32⟩
  | .hbm, ⟨65, _⟩ => ⟨S50000x128, .f32⟩
  | .hbm, ⟨66, _⟩ => ⟨S_, .f32⟩
  | .hbm, ⟨67, _⟩ => ⟨S50000x128, .f32⟩
  | .hbm, ⟨68, _⟩ => ⟨S50000x128, .f32⟩
  | .hbm, ⟨69, _⟩ => ⟨S50000x128, .f32⟩
  | .hbm, ⟨70, _⟩ => ⟨S50000, .i32⟩
  | .hbm, ⟨71, _⟩ => ⟨S850000, .i32⟩
  | .hbm, ⟨72, _⟩ => ⟨S850000, .i32⟩
  | .hbm, ⟨73, _⟩ => ⟨S_, .f32⟩
  | .hbm, ⟨74, _⟩ => ⟨S850000, .f32⟩
  | .hbm, ⟨75, _⟩ => ⟨S_, .f32⟩
  | .hbm, ⟨76, _⟩ => ⟨S50000, .f32⟩
  | .hbm, ⟨77, _⟩ => ⟨S850000x1, .i32⟩
  | .hbm, ⟨78, _⟩ => ⟨S50000, .f32⟩
  | .hbm, ⟨79, _⟩ => ⟨S_, .f32⟩
  | .hbm, ⟨80, _⟩ => ⟨S50000, .f32⟩
  | .hbm, ⟨81, _⟩ => ⟨S50000, .i1⟩
  | .hbm, ⟨82, _⟩ => ⟨S50000, .f32⟩
  | .hbm, ⟨83, _⟩ => ⟨S_, .f32⟩
  | .hbm, ⟨84, _⟩ => ⟨S_, .f32⟩
  | .hbm, ⟨85, _⟩ => ⟨S50000, .f32⟩
  | .hbm, ⟨86, _⟩ => ⟨S50000, .f32⟩
  | .hbm, ⟨87, _⟩ => ⟨S_, .i32⟩
  | .hbm, ⟨88, _⟩ => ⟨S850000, .i32⟩
  | .hbm, ⟨89, _⟩ => ⟨S850000, .i1⟩
  | .hbm, ⟨90, _⟩ => ⟨S_, .i32⟩
  | .hbm, ⟨91, _⟩ => ⟨S850000, .i32⟩
  | .hbm, ⟨92, _⟩ => ⟨S850000, .i32⟩
  | .hbm, ⟨93, _⟩ => ⟨S850000, .i32⟩
  | .hbm, ⟨94, _⟩ => ⟨S850000x1, .i32⟩
  | .hbm, ⟨95, _⟩ => ⟨S850000, .f32⟩
  | .hbm, ⟨96, _⟩ => ⟨S_, .i32⟩
  | .hbm, ⟨97, _⟩ => ⟨S850000, .i32⟩
  | .hbm, ⟨98, _⟩ => ⟨S850000, .i1⟩
  | .hbm, ⟨99, _⟩ => ⟨S_, .i32⟩
  | .hbm, ⟨100, _⟩ => ⟨S850000, .i32⟩
  | .hbm, ⟨101, _⟩ => ⟨S850000, .i32⟩
  | .hbm, ⟨102, _⟩ => ⟨S850000, .i32⟩
  | .hbm, ⟨103, _⟩ => ⟨S850000x1, .i32⟩
  | .hbm, ⟨104, _⟩ => ⟨S850000, .f32⟩
  | .hbm, ⟨105, _⟩ => ⟨S850000, .f32⟩
  | .hbm, ⟨106, _⟩ => ⟨S_, .i32⟩
  | .hbm, ⟨107, _⟩ => ⟨S850000, .i32⟩
  | .hbm, ⟨108, _⟩ => ⟨S850000, .i1⟩
  | .hbm, ⟨109, _⟩ => ⟨S_, .i32⟩
  | .hbm, ⟨110, _⟩ => ⟨S850000, .i32⟩
  | .hbm, ⟨111, _⟩ => ⟨S850000, .i32⟩
  | .hbm, ⟨112, _⟩ => ⟨S850000, .i32⟩
  | .hbm, ⟨113, _⟩ => ⟨S850000x1, .i32⟩
  | .hbm, ⟨114, _⟩ => ⟨S850000x128, .f32⟩
  | .hbm, ⟨115, _⟩ => ⟨S850000x1, .f32⟩
  | .hbm, ⟨116, _⟩ => ⟨S850000x128, .f32⟩
  | .hbm, ⟨117, _⟩ => ⟨S850000x128, .f32⟩
  | .hbm, ⟨118, _⟩ => ⟨S_, .f32⟩
  | .hbm, ⟨119, _⟩ => ⟨S50000x128, .f32⟩
  | .hbm, ⟨120, _⟩ => ⟨S850000x1, .i32⟩
  | .hbm, ⟨121, _⟩ => ⟨S50000x128, .f32⟩
  | .hbm, ⟨122, _⟩ => ⟨S1x128, .f32⟩
  | .hbm, ⟨123, _⟩ => ⟨S50000x128, .f32⟩
  | .hbm, ⟨124, _⟩ => ⟨S50000x128, .f32⟩
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_cst : Ref sig .tc := ⟨.hbm, 14, rfl⟩
abbrev main_v8 : Ref sig .tc := ⟨.hbm, 15, rfl⟩
abbrev main_cst_0 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_cst_1 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_cst_2 : Ref sig .tc := ⟨.hbm, 24, rfl⟩
abbrev main_call0_v0 : Ref sig .tc := ⟨.hbm, 25, rfl⟩
abbrev main_call0_v1 : Ref sig .tc := ⟨.hbm, 26, rfl⟩
abbrev main_v15 : Ref sig .tc := ⟨.hbm, 27, rfl⟩
abbrev main_c : Ref sig .tc := ⟨.hbm, 28, rfl⟩
abbrev main_v16 : Ref sig .tc := ⟨.hbm, 29, rfl⟩
abbrev main_v17 : Ref sig .tc := ⟨.hbm, 30, rfl⟩
abbrev main_c_3 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_c_4 : Ref sig .tc := ⟨.hbm, 37, rfl⟩
abbrev main_v23 : Ref sig .tc := ⟨.hbm, 38, rfl⟩
abbrev main_v24 : Ref sig .tc := ⟨.hbm, 39, rfl⟩
abbrev main_c_5 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_c_6 : Ref sig .tc := ⟨.hbm, 47, rfl⟩
abbrev main_v31 : Ref sig .tc := ⟨.hbm, 48, rfl⟩
abbrev main_v32 : Ref sig .tc := ⟨.hbm, 49, rfl⟩
abbrev main_c_7 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_cst_8 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_call1_cst : Ref sig .tc := ⟨.hbm, 66, rfl⟩
abbrev main_call1_v0 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_cst_9 : Ref sig .tc := ⟨.hbm, 73, rfl⟩
abbrev main_v52 : Ref sig .tc := ⟨.hbm, 74, rfl⟩
abbrev main_cst_10 : Ref sig .tc := ⟨.hbm, 75, rfl⟩
abbrev main_v53 : Ref sig .tc := ⟨.hbm, 76, rfl⟩
abbrev main_v54 : Ref sig .tc := ⟨.hbm, 77, rfl⟩
abbrev main_v55 : Ref sig .tc := ⟨.hbm, 78, rfl⟩
abbrev main_cst_11 : Ref sig .tc := ⟨.hbm, 79, rfl⟩
abbrev main_v56 : Ref sig .tc := ⟨.hbm, 80, rfl⟩
abbrev main_v57 : Ref sig .tc := ⟨.hbm, 81, rfl⟩
abbrev main_v58 : Ref sig .tc := ⟨.hbm, 82, rfl⟩
abbrev main_cst_12 : Ref sig .tc := ⟨.hbm, 83, rfl⟩
abbrev main_call2_v0 : Ref sig .tc := ⟨.hbm, 84, rfl⟩
abbrev main_call2_v1 : Ref sig .tc := ⟨.hbm, 85, rfl⟩
abbrev main_v59 : Ref sig .tc := ⟨.hbm, 86, rfl⟩
abbrev main_c_13 : Ref sig .tc := ⟨.hbm, 87, rfl⟩
abbrev main_v60 : Ref sig .tc := ⟨.hbm, 88, rfl⟩
abbrev main_v61 : Ref sig .tc := ⟨.hbm, 89, rfl⟩
abbrev main_c_14 : Ref sig .tc := ⟨.hbm, 90, rfl⟩
abbrev main_v62 : Ref sig .tc := ⟨.hbm, 91, rfl⟩
abbrev main_v63 : Ref sig .tc := ⟨.hbm, 92, rfl⟩
abbrev main_v64 : Ref sig .tc := ⟨.hbm, 93, rfl⟩
abbrev main_v65 : Ref sig .tc := ⟨.hbm, 94, rfl⟩
abbrev main_v66 : Ref sig .tc := ⟨.hbm, 95, rfl⟩
abbrev main_c_15 : Ref sig .tc := ⟨.hbm, 96, rfl⟩
abbrev main_v67 : Ref sig .tc := ⟨.hbm, 97, rfl⟩
abbrev main_v68 : Ref sig .tc := ⟨.hbm, 98, rfl⟩
abbrev main_c_16 : Ref sig .tc := ⟨.hbm, 99, rfl⟩
abbrev main_v69 : Ref sig .tc := ⟨.hbm, 100, rfl⟩
abbrev main_v70 : Ref sig .tc := ⟨.hbm, 101, rfl⟩
abbrev main_v71 : Ref sig .tc := ⟨.hbm, 102, rfl⟩
abbrev main_v72 : Ref sig .tc := ⟨.hbm, 103, rfl⟩
abbrev main_v73 : Ref sig .tc := ⟨.hbm, 104, rfl⟩
abbrev main_v74 : Ref sig .tc := ⟨.hbm, 105, rfl⟩
abbrev main_c_17 : Ref sig .tc := ⟨.hbm, 106, rfl⟩
abbrev main_v75 : Ref sig .tc := ⟨.hbm, 107, rfl⟩
abbrev main_v76 : Ref sig .tc := ⟨.hbm, 108, rfl⟩
abbrev main_c_18 : Ref sig .tc := ⟨.hbm, 109, rfl⟩
abbrev main_v77 : Ref sig .tc := ⟨.hbm, 110, rfl⟩
abbrev main_v78 : Ref sig .tc := ⟨.hbm, 111, rfl⟩
abbrev main_v79 : Ref sig .tc := ⟨.hbm, 112, rfl⟩
abbrev main_v80 : Ref sig .tc := ⟨.hbm, 113, rfl⟩
abbrev main_v81 : Ref sig .tc := ⟨.hbm, 114, rfl⟩
abbrev main_v82 : Ref sig .tc := ⟨.hbm, 115, rfl⟩
abbrev main_v83 : Ref sig .tc := ⟨.hbm, 116, rfl⟩
abbrev main_v84 : Ref sig .tc := ⟨.hbm, 117, rfl⟩
abbrev main_cst_19 : Ref sig .tc := ⟨.hbm, 118, rfl⟩
abbrev main_v85 : Ref sig .tc := ⟨.hbm, 119, rfl⟩
abbrev main_v86 : Ref sig .tc := ⟨.hbm, 120, rfl⟩
abbrev main_v87 : Ref sig .tc := ⟨.hbm, 121, rfl⟩
abbrev main_v88 : Ref sig .tc := ⟨.hbm, 122, rfl⟩
abbrev main_v89 : Ref sig .tc := ⟨.hbm, 123, rfl⟩
abbrev main_v90 : Ref sig .tc := ⟨.hbm, 124, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  concatenates_S800000_S50000_S850000_d0 : Shape.Concatenates [S800000, S50000] S850000 0
  bcast_S_S850000 : S_.BroadcastsInDim S850000 (![] : Fin 0 → Fin S850000.rank)
  bcast_S_S50000 : S_.BroadcastsInDim S50000 (![] : Fin 0 → Fin S50000.rank)
  bcast_S850000_S850000x1_0 : S850000.BroadcastsInDim S850000x1 (![0] : Fin 1 → Fin S850000x1.rank)
  bcast_S850000x1_S850000x128_0_1 : S850000x1.BroadcastsInDim S850000x128 (![0, 1] : Fin 2 → Fin S850000x128.rank)
  bcast_S_S50000x128 : S_.BroadcastsInDim S50000x128 (![] : Fin 0 → Fin S50000x128.rank)
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  dot_S50000x128_S128x128_S50000x128_1_0_0_1_n_n_wf : DotDims.WF S50000x128 S128x128 S50000x128 [1] [0] [0] [1] [] []
  scatter_S50000_S850000x1_S850000_n_0_0_1_wf : ScatterDims.WF S50000 S850000x1 S850000 [] [0] [0] 1
  gather_S50000_S850000x1_S850000_n_0_n_n_0_1_1_wf : GatherDims.WF S50000 S850000x1 S850000 [] [0] [] [0] [] 1 ![1]
  gather_S50000x128_S850000x1_S850000x128_1_0_n_n_0_1_1128_wf : GatherDims.WF S50000x128 S850000x1 S850000x128 [1] [0] [] [0] [] 1 ![1, 128]
  scatter_S50000x128_S850000x1_S850000x128_1_0_0_1_wf : ScatterDims.WF S50000x128 S850000x1 S850000x128 [1] [0] [0] 1

variable [Facts₀]

def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf
def scatter_S50000_S850000x1_S850000_n_0_0_1 : ScatterDims S50000 S850000x1 S850000 where
  updateWindowDims := []
  insertedWindowDims := [0]
  scatterDimsToOperandDims := [0]
  indexVectorDim := 1
  wf := scatter_S50000_S850000x1_S850000_n_0_0_1_wf
def gather_S50000_S850000x1_S850000_n_0_n_n_0_1_1 : GatherDims S50000 S850000x1 S850000 where
  offsetDims := []
  collapsedSliceDims := [0]
  operandBatchingDims := []
  startIndicesBatchingDims := []
  startIndexMap := [0]
  indexVectorDim := 1
  sliceSizes := ![1]
  wf := gather_S50000_S850000x1_S850000_n_0_n_n_0_1_1_wf
def gather_S50000x128_S850000x1_S850000x128_1_0_n_n_0_1_1128 : GatherDims S50000x128 S850000x1 S850000x128 where
  offsetDims := [1]
  collapsedSliceDims := [0]
  operandBatchingDims := []
  startIndicesBatchingDims := []
  startIndexMap := [0]
  indexVectorDim := 1
  sliceSizes := ![1, 128]
  wf := gather_S50000x128_S850000x1_S850000x128_1_0_n_n_0_1_1128_wf
def scatter_S50000x128_S850000x1_S850000x128_1_0_0_1 : ScatterDims S50000x128 S850000x1 S850000x128 where
  updateWindowDims := [1]
  insertedWindowDims := [0]
  scatterDimsToOperandDims := [0]
  indexVectorDim := 1
  wf := scatter_S50000x128_S850000x1_S850000x128_1_0_0_1_wf

class Facts : Prop extends Facts₀ where

variable [Facts]
-- ==== Proof.Spec.lean ====
/-
  The three whole-array functions of a two-layer graph convolution that its four tiled stages compute, over the
  literal shapes [50000,128] (node features), [128,128] (a weight matrix) and [1,128] (a bias row), at the ideal
  instance, where a float is an extended real:
  * `lin x w`: every node's feature row times the weight matrix, entry (r, c) the sum over k of x(r,k) · w(k,c);
  * `addRow a b`: the bias row added to every node's row, entry (r, c) being a(r,c) + b(0,c);
  * `reluAddRow a b`: the same followed by the clamp at zero from below, max (a(r,c) + b(0,c)) 0.
  Each comes with its read at explicit coordinates (r, c), which holds by unfolding.
-/
import Idealize.ShloMosaic.PureOps.Ideal
import Idealize.ShloMosaic.Lib.ValueIdx

noncomputable section

open scoped BigOperators

namespace Cert.Gcn

open Idealize.ShloMosaic Idealize.ShloMosaic.ValueIdx

/-- Node features: 50000 nodes, 128 channels. -/
abbrev SNH : Shape := ⟨2, ![50000, 128]⟩
/-- A weight matrix: 128 input channels by 128 output channels. -/
abbrev SHH : Shape := ⟨2, ![128, 128]⟩
/-- A bias as a single row of 128 channels. -/
abbrev S1H : Shape := ⟨2, ![1, 128]⟩

/-- Every node's feature row times the weight matrix. -/
def lin (x : FVec Ideal SNH .f32) (w : FVec Ideal SHH .f32) : FVec Ideal SNH .f32 :=
  fun i => ∑ k : Fin 128, x (ix2 (i 0) k) * w (ix2 k (i 1))

/-- The bias row added to every node's row. -/
def addRow (a : FVec Ideal SNH .f32) (b : FVec Ideal S1H .f32) : FVec Ideal SNH .f32 :=
  fun i => a i + b (ix2 (0 : Fin 1) (i 1))

/-- The bias row added to every node's row, then the clamp at zero from below. -/
def reluAddRow (a : FVec Ideal SNH .f32) (b : FVec Ideal S1H .f32) : FVec Ideal SNH .f32 :=
  fun i => max (a i + b (ix2 (0 : Fin 1) (i 1))) 0

theorem lin_apply (x : FVec Ideal SNH .f32) (w : FVec Ideal SHH .f32) (r : Fin 50000) (c : Fin 128) :
    lin x w (ix2 r c) = ∑ k : Fin 128, x (ix2 r k) * w (ix2 k c) := rfl

theorem addRow_apply (a : FVec Ideal SNH .f32) (b : FVec Ideal S1H .f32) (r : Fin 50000) (c : Fin 128) :
    addRow a b (ix2 r c) = a (ix2 r c) + b (ix2 (0 : Fin 1) c) := rfl

theorem reluAddRow_apply (a : FVec Ideal SNH .f32) (b : FVec Ideal S1H .f32) (r : Fin 50000) (c : Fin 128) :
    reluAddRow a b (ix2 r c) = max (a (ix2 r c) + b (ix2 (0 : Fin 1) c)) 0 := rfl

/-- The clamp is the clamp of the sum. -/
theorem reluAddRow_eq (a : FVec Ideal SNH .f32) (b : FVec Ideal S1H .f32) :
    reluAddRow a b = fun i => max (addRow a b i) 0 := rfl

end Cert.Gcn

end
-- ==== Proof.Chain.lean ====
/-
  The graph side of the convolution, shared by both layers: from the edge list (two rows of 800000 node numbers,
  sources and destinations) to the aggregation of node features along the edges.
  * `srcIdx` / `dstIdx`: a row of the edge list followed by the 50000 self loops 0, 1, …, 49999;
  * `wrap`: a negative node number counts from the end (50000 is added to it);
  * `deg`: a node's in-degree, the number of entries of the destination vector that name it, self loop included;
  * `dinv`: 1/sqrt(deg) where the degree is positive, 0 elsewhere;
  * `norm`: an edge's weight, dinv at its source times dinv at its destination;
  * `agg h`: node d receives the sum over the edges into d of the source's feature row of `h` times the edge's weight.
  All at any float instance: the operations are the program's own, applied in the program's order.
-/
import proofs.«107226_j27633819583001_1_alg».proof.KernelIdeal
import proofs.«107226_j27633819583001_1_alg».proof.Proof.Gen.KernelIdeal

noncomputable section

namespace Cert.KernelIdeal.Chain

open Cert.KernelIdeal Cert.KernelIdeal.Gen Idealize.ShloMosaic Idealize.ShloMosaic.TcCoe

variable {F : FTy → Type} [FloatOps F]

/-- The sources: row 0 of the edge list, then the self loops. -/
def srcIdx (ei : (⟨S2x800000, .i32⟩ : BufTy).Contents (Elt F)) : (⟨S850000, .i32⟩ : BufTy).Contents (Elt F) :=
  concatenate S850000 0 [⟨S800000, (shapeCast _ (extractStridedSlice S1x800000 ![0, 0] ei slices_S2x800000_S1x800000_0_0) shapeCasts_S1x800000_S800000)⟩, ⟨S50000, (iotaInDim S50000 32 0)⟩] concatenates_S800000_S50000_S850000_d0

/-- The destinations: row 1 of the edge list, then the self loops. -/
def dstIdx (ei : (⟨S2x800000, .i32⟩ : BufTy).Contents (Elt F)) : (⟨S850000, .i32⟩ : BufTy).Contents (Elt F) :=
  concatenate S850000 0 [⟨S800000, (shapeCast _ (extractStridedSlice S1x800000 ![1, 0] ei slices_S2x800000_S1x800000_1_0) shapeCasts_S1x800000_S800000)⟩, ⟨S50000, (iotaInDim S50000 32 0)⟩] concatenates_S800000_S50000_S850000_d0

/-- A negative node number counts from the end. -/
def wrap (s : (⟨S850000, .i32⟩ : BufTy).Contents (Elt F)) : (⟨S850000, .i32⟩ : BufTy).Contents (Elt F) :=
  select (cmpi .slt s (broadcastInDim S850000 ![] bcast_S_S850000 (constantI S_ 32 0#32))) (addi s (broadcastInDim S850000 ![] bcast_S_S850000 (constantI S_ 32 50000#32))) s

/-- The in-degree: ones added up at the destinations. -/
def deg (d : (⟨S850000, .i32⟩ : BufTy).Contents (Elt F)) : (⟨S50000, .f32⟩ : BufTy).Contents (Elt F) :=
  Host.scatterAdd scatter_S50000_S850000x1_S850000_n_0_0_1 (broadcastInDim S50000 ![] bcast_S_S50000 (constant S_ .f32 0x00000000#32)) (broadcastInDim S850000x1 ![0] bcast_S850000_S850000x1_0 d) (broadcastInDim S850000 ![] bcast_S_S850000 (constant S_ .f32 0x3F800000#32))

/-- 1/sqrt(deg) where the degree is positive, 0 elsewhere. -/
def dinv (d : (⟨S850000, .i32⟩ : BufTy).Contents (Elt F)) : (⟨S50000, .f32⟩ : BufTy).Contents (Elt F) :=
  select (cmpf .ogt (deg d) (broadcastInDim S50000 ![] bcast_S_S50000 (constant S_ .f32 0x00000000#32))) (Host.rsqrt (deg d)) (broadcastInDim S50000 ![] bcast_S_S50000 (id (constant S_ .f32 0x00000000#32)))

/-- An edge's weight: dinv at its source times dinv at its destination. -/
def norm (s d : (⟨S850000, .i32⟩ : BufTy).Contents (Elt F)) : (⟨S850000, .f32⟩ : BufTy).Contents (Elt F) :=
  mulf (Host.gather gather_S50000_S850000x1_S850000_n_0_n_n_0_1_1 (dinv d) (broadcastInDim S850000x1 ![0] bcast_S850000_S850000x1_0 (wrap s))) (Host.gather gather_S50000_S850000x1_S850000_n_0_n_n_0_1_1 (dinv d) (broadcastInDim S850000x1 ![0] bcast_S850000_S850000x1_0 (wrap d)))

/-- The aggregation: each edge carries its source's feature row, scaled by the edge's weight, to its destination,
    where the rows are added up. -/
def agg (h : (⟨S50000x128, .f32⟩ : BufTy).Contents (Elt F)) (s d : (⟨S850000, .i32⟩ : BufTy).Contents (Elt F))
    (n : (⟨S850000, .f32⟩ : BufTy).Contents (Elt F)) : (⟨S50000x128, .f32⟩ : BufTy).Contents (Elt F) :=
  Host.scatterAdd scatter_S50000x128_S850000x1_S850000x128_1_0_0_1 (broadcastInDim S50000x128 ![] bcast_S_S50000x128 (constant S_ .f32 0x00000000#32)) (broadcastInDim S850000x1 ![0] bcast_S850000_S850000x1_0 d) (mulf (Host.gather gather_S50000x128_S850000x1_S850000x128_1_0_n_n_0_1_1128 h (broadcastInDim S850000x1 ![0] bcast_S850000_S850000x1_0 (wrap s))) (broadcastInDim S850000x128 ![0, 1] bcast_S850000x1_S850000x128_0_1 (broadcastInDim S850000x1 ![0] bcast_S850000_S850000x1_0 n)))

end Cert.KernelIdeal.Chain

end
-- ==== Proof.Model.lean ====
/-
  The two-layer graph convolution as ONE function of its six arguments, at the ideal instance:
      h   = relu (agg (x · W1) + b1)
      out =       agg (h · W2) + b2
  where `agg` sends along every edge (self loops included) the source's row, scaled by the edge's weight
  1 / sqrt(deg source · deg destination), and adds up what arrives at each node. The products and the bias steps are
  the whole-array functions `lin`, `reluAddRow`, `addRow`; the graph side (`srcIdx`, `dstIdx`, `norm`, `agg`) is
  the program's own chain of host operations, never opened. A bias of 128 channels enters as the one-row array
  [1,128] it is reshaped to.
  Both programs are shown to end at this function of their arguments.
-/
import proofs.«107226_j27633819583001_1_alg».proof.Proof.Spec
import proofs.«107226_j27633819583001_1_alg».proof.Proof.Chain

noncomputable section

namespace Cert.Gcn

open Idealize.ShloMosaic Cert.KernelIdeal

/-- A bias vector as a single row. -/
def biasRow (b : (⟨S128, .f32⟩ : BufTy).Contents (Elt Ideal)) : (⟨S1x128, .f32⟩ : BufTy).Contents (Elt Ideal) :=
  shapeCast S1x128 b Facts₀.shapeCasts_S128_S1x128

/-- One layer's aggregation over the graph the edge list `ei` describes. -/
def aggOn (ei : (⟨S2x800000, .i32⟩ : BufTy).Contents (Elt Ideal)) (h : (⟨S50000x128, .f32⟩ : BufTy).Contents (Elt Ideal)) :
    (⟨S50000x128, .f32⟩ : BufTy).Contents (Elt Ideal) :=
  Chain.agg h (Chain.srcIdx ei) (Chain.dstIdx ei) (Chain.norm (Chain.srcIdx ei) (Chain.dstIdx ei))

/-- The network: two graph convolutions with a clamp at zero between them. -/
def gcn (x : (⟨S50000x128, .f32⟩ : BufTy).Contents (Elt Ideal)) (ei : (⟨S2x800000, .i32⟩ : BufTy).Contents (Elt Ideal))
    (w1 : (⟨S128x128, .f32⟩ : BufTy).Contents (Elt Ideal)) (b1 : (⟨S128, .f32⟩ : BufTy).Contents (Elt Ideal))
    (w2 : (⟨S128x128, .f32⟩ : BufTy).Contents (Elt Ideal)) (b2 : (⟨S128, .f32⟩ : BufTy).Contents (Elt Ideal)) :
    (⟨S50000x128, .f32⟩ : BufTy).Contents (Elt Ideal) :=
  addRow (aggOn ei (lin (reluAddRow (aggOn ei (lin x w1)) (biasRow b1)) w2)) (biasRow b2)

end Cert.Gcn

end
-- ==== Proof.Mat.lean ====
/-
  The two matrix stages of the program, each a grid of 25 points over blocks of 2000 node rows: what the output
  array holds after the stage, as one function of the arrays the stage reads.
  A grid point reads rows 2000·t … 2000·t + 1999 of its input and the whole 128 × 128 weight matrix, multiplies the
  block by the matrix, and writes the same rows of its output; entry (r, c) of the result is the sum over k of the
  input's entry (r, k) times the weight's entry (k, c), so it depends on row r of the input only.
  Every statement is at an arbitrary contents `V` of the memory when the stage is entered.
-/
import proofs.«107226_j27633819583001_1_alg».proof.Proof.Gen.KernelIdeal.Frame
import proofs.«107226_j27633819583001_1_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

open scoped BigOperators

namespace Cert.KernelIdeal.Mat

open Cert.KernelIdeal Cert.KernelIdeal.Gen
open Idealize.ShloMosaic Idealize.ShloMosaic.TcCoe Idealize.ShloMosaic.ValueIdx Idealize.ShloMosaic.Pipeline

/-- A block's own rectangle starts at the origin. -/
theorem hz : (![0, 0] : Fin 2 → Nat) = fun _ => 0 := funext fun a => by fin_cases a <;> rfl

/-! ## The product's operand positions, axis by axis

The left operand is read at (row of the result, contraction position), the right one at (contraction position, column of the result). -/

theorem lhs_0 (i : S2000x128.Idx) (q : dot_S2000x128_S128x128_S2000x128_1_0_0_1_n_n.contr.Idx) :
    (dot_S2000x128_S128x128_S2000x128_1_0_0_1_n_n.lhsIdx i q 0).val = (i 0).val := by
  unfold DotDims.lhsIdx
  rw [dif_neg (show ¬(0 : Fin S2000x128.rank) ∈ dot_S2000x128_S128x128_S2000x128_1_0_0_1_n_n.lhsBatch by decide), dif_pos (show (0 : Fin S2000x128.rank) ∈ dot_S2000x128_S128x128_S2000x128_1_0_0_1_n_n.lhsNonContracting by decide)]
  rfl
theorem lhs_1 (i : S2000x128.Idx) (q : dot_S2000x128_S128x128_S2000x128_1_0_0_1_n_n.contr.Idx) :
    (dot_S2000x128_S128x128_S2000x128_1_0_0_1_n_n.lhsIdx i q 1).val = (q ⟨0, by decide⟩).val :=
  dot_S2000x128_S128x128_S2000x128_1_0_0_1_n_n.lhsIdx_val_of_single rfl i q
theorem rhs_0 (i : S2000x128.Idx) (q : dot_S2000x128_S128x128_S2000x128_1_0_0_1_n_n.contr.Idx) :
    (dot_S2000x128_S128x128_S2000x128_1_0_0_1_n_n.rhsIdx i q 0).val = (q ⟨0, by decide⟩).val :=
  dot_S2000x128_S128x128_S2000x128_1_0_0_1_n_n.rhsIdx_val_of_single rfl i q
theorem rhs_1 (i : S2000x128.Idx) (q : dot_S2000x128_S128x128_S2000x128_1_0_0_1_n_n.contr.Idx) :
    (dot_S2000x128_S128x128_S2000x128_1_0_0_1_n_n.rhsIdx i q 1).val = (i 1).val := by
  unfold DotDims.rhsIdx
  rw [dif_neg (show ¬(1 : Fin S128x128.rank) ∈ dot_S2000x128_S128x128_S2000x128_1_0_0_1_n_n.rhsBatch by decide), dif_pos (show (1 : Fin S128x128.rank) ∈ dot_S2000x128_S128x128_S2000x128_1_0_0_1_n_n.rhsNonContracting by decide)]
  rfl

variable (V : (c : Dev nD) → (b : Ref sig .tc) → Buf (Elt Ideal) ((c : Thread nD τ).loc b))

/-! ## Stage 0: a block of 2000 node rows times the weight matrix -/

/-- The stage's arithmetic at row p, column q of a block: the sum over k of the block's entry (p, k) times the
    weight's entry (k, q). The two narrowings to a shorter float format are the identity on extended reals, and the
    product is accumulated into zero. -/
theorem pay0_apply (a : Vec Ideal S2000x128 .f32) (w : Vec Ideal S128x128 .f32) (p : Fin 2000) (q : Fin 128) :
    k0_pay1 (F := Ideal) a w (ix2 p q) = ∑ k : Fin 128, a (ix2 p k) * w (ix2 k q) := by
  unfold k0_pay1
  refine (Ideal.matmul_constant_zero_apply dot_S2000x128_S128x128_S2000x128_1_0_0_1_n_n none _ _ (ix2 p q)).trans ?_
  rw [← Equiv.sum_comp (ValueIdx.contrEquiv1 dot_S2000x128_S128x128_S2000x128_1_0_0_1_n_n 128 rfl rfl).symm]
  refine Finset.sum_congr rfl fun k _ => ?_
  have hk := ValueIdx.contrEquiv1_symm_val dot_S2000x128_S128x128_S2000x128_1_0_0_1_n_n 128 rfl rfl k
  have el : dot_S2000x128_S128x128_S2000x128_1_0_0_1_n_n.lhsIdx (ix2 p q) ((ValueIdx.contrEquiv1 dot_S2000x128_S128x128_S2000x128_1_0_0_1_n_n 128 rfl rfl).symm k) = ix2 p k := funext fun a => Fin.ext (by
    match a with
    | ⟨0, _⟩ => exact lhs_0 _ _
    | ⟨1, _⟩ => exact (lhs_1 _ _).trans hk)
  have er : dot_S2000x128_S128x128_S2000x128_1_0_0_1_n_n.rhsIdx (ix2 p q) ((ValueIdx.contrEquiv1 dot_S2000x128_S128x128_S2000x128_1_0_0_1_n_n 128 rfl rfl).symm k) = ix2 k q := funext fun a => Fin.ext (by
    match a with
    | ⟨0, _⟩ => exact (rhs_0 _ _).trans hk
    | ⟨1, _⟩ => exact rhs_1 _ _)
  rw [truncf_apply, truncf_apply, el, er]

/-- If a block `a` holds the entries of the array `A` that an embedding `e` of block positions picks out, `e` shifts
    the row by a fixed base and keeps the column, and the weight block is the whole weight matrix `W`, then the
    stage's result at block position j is `lin A W` at position `e j`: row `e j` of `A` is row j of the block. -/
theorem pay0_blk (A : Vec Ideal S50000x128 .f32) (W : Vec Ideal S128x128 .f32) (a : Vec Ideal S2000x128 .f32) (w : Vec Ideal S128x128 .f32)
    (e : S2000x128.Idx → S50000x128.Idx) (base : Nat) (ha : ∀ j, a j = A (e j)) (hw : ∀ k, w k = W k)
    (he0 : ∀ j, ((e j) 0).val = base + (j 0).val) (he1 : ∀ j, ((e j) 1).val = (j 1).val) (j : S2000x128.Idx) :
    k0_pay1 (F := Ideal) a w j = Cert.Gcn.lin A W (e j) := by
  obtain ⟨p, q, rfl⟩ : ∃ (p : Fin 2000) (q : Fin 128), j = ix2 p q := ⟨j 0, j 1, eq_ix2 j⟩
  rw [pay0_apply]
  show _ = ∑ k : Fin 128, A (ix2 ((e (ix2 p q)) 0) k) * W (ix2 k ((e (ix2 p q)) 1))
  refine Finset.sum_congr rfl fun k _ => ?_
  have h1 : ((e (ix2 p q)) 1 : Fin 128) = q := Fin.ext (he1 (ix2 p q))
  have hrow : e (ix2 p k) = ix2 ((e (ix2 p q)) 0) k := funext fun d => Fin.ext (by
    match d with
    | ⟨0, _⟩ => exact (he0 (ix2 p k)).trans (he0 (ix2 p q)).symm
    | ⟨1, _⟩ => exact he1 (ix2 p k))
  rw [ha, hw, hrow]
  exact congrArg (fun z : Fin 128 => A (ix2 ((e (ix2 p q)) 0) k) * W (ix2 k z)) h1.symm

/-- The block positions, decided once over the 25 grid points: the input and the output sit at block row t, block
    column 0; the weight matrix is one block, always at (0, 0). -/
theorem idx_facts0 : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- What grid point t writes back is block t of `lin` of the two arrays the stage reads: rows 2000·t to
    2000·t + 1999 of the input are the rows the output block covers, and the weight block is the whole matrix. -/
theorem flushed0_eq (c : Dev nD) (t : Fin cfg0.N) :
    (dat0 (F := Ideal) V c).flushed 2 t = ((cfg0.win 2).blk t).view.read (Elt Ideal) (Cert.Gcn.lin (V c main_arg0) (V c main_arg2)) := by
  show (cfg0.win 2).cut (grid0.coords t) ((dat0 V c).after 2 t) = _
  rw [after0_2]
  unfold out0_2
  rw [View.canon_unit_zero hz]
  simp only [View.ld_unit_zero (S := S2000x128) hz, View.ld_unit_zero (S := S128x128) hz]
  obtain ⟨e0, e1, e2, e3, e4, e5⟩ := idx_facts0 t
  funext j
  show k0_pay1 (iblk0 V c 0 t) (iblk0 V c 1 t) j = Cert.Gcn.lin (V c main_arg0) (V c main_arg2) (((cfg0.win 2).blk t).view.emb j)
  refine pay0_blk (V c main_arg0) (V c main_arg2) (iblk0 V c 0 t) (iblk0 V c 1 t) (((cfg0.win 2).blk t).view.emb)
    (win0_2.index t (0 : Fin 2) * 2000) ?_ ?_ ?_ ?_ j
  · intro y
    show V c main_arg0 (((cfg0.win 0).blk t).view.emb y) = V c main_arg0 (((cfg0.win 2).blk t).view.emb y)
    refine congrArg _ (funext fun a => Fin.ext ?_)
    match a with
    | ⟨0, _⟩ => show win0_0.index t (0 : Fin 2) * 2000 + 1 * (y 0).val = win0_2.index t (0 : Fin 2) * 2000 + 1 * (y 0).val; omega
    | ⟨1, _⟩ => show win0_0.index t (1 : Fin 2) * 128 + 1 * (y 1).val = win0_2.index t (1 : Fin 2) * 128 + 1 * (y 1).val; omega
  · intro k
    show V c main_arg2 (((cfg0.win 1).blk t).view.emb k) = V c main_arg2 k
    refine congrArg _ (funext fun a => Fin.ext ?_)
    match a with
    | ⟨0, _⟩ => show win0_1.index t (0 : Fin 2) * 128 + 1 * (k 0).val = (k 0).val; omega
    | ⟨1, _⟩ => show win0_1.index t (1 : Fin 2) * 128 + 1 * (k 1).val = (k 1).val; omega
  · intro y
    show win0_2.index t (0 : Fin 2) * 2000 + 1 * (y 0).val = win0_2.index t (0 : Fin 2) * 2000 + (y 0).val; omega
  · intro y
    show win0_2.index t (1 : Fin 2) * 128 + 1 * (y 1).val = (y 1).val; omega

/-- A position of the output array lies in grid point t's block exactly when each coordinate lies in the block's
    range on its axis. -/
theorem mem_blk0 (t : Fin cfg0.N) (i : S50000x128.Idx) :
    i ∈ ((cfg0.win 2).blk t).view.set ↔ ∀ a : Fin 2, win0_2.index t a * S2000x128.size a ≤ (i a).val ∧ (i a).val < win0_2.index t a * S2000x128.size a + S2000x128.size a := by
  show i ∈ ((View.whole main_v30).slice (win0_2.rect t)).set ↔ _
  rw [View.set_slice_whole, Rect.mem_set_unit]
  exact Iff.rfl

/-- The 25 blocks of 2000 rows tile the 50000 rows (row r lies in block r / 2000), so after the stage the output
    array holds `lin` of the two arrays the stage reads, as the stage found them. -/
theorem final0 (c : Dev nD) : (dat0 (F := Ideal) V c).arrAt 2 cfg0.N = Cert.Gcn.lin (V c main_arg0) (V c main_arg2) :=
  (dat0 V c).arrAt_eq_of_cover 2 _ (fun t _ => flushed0_eq V c t) fun i => by
    have hi0 : (i 0).val < 50000 := (i 0).isLt
    have hi1 : (i 1).val < 128 := (i 1).isLt
    have hN : cfg0.N = 25 := N_0
    refine ⟨⟨(i 0).val / 2000, by rw [hN]; omega⟩, flush0_2 _, ?_⟩
    rw [mem_blk0]
    obtain ⟨e0, e1, e2, e3, e4, e5⟩ := idx_facts0 ⟨(i 0).val / 2000, by rw [hN]; omega⟩
    intro a
    match a with
    | ⟨0, _⟩ =>
      show win0_2.index ⟨(i 0).val / 2000, _⟩ (0 : Fin 2) * 2000 ≤ (i 0).val ∧ (i 0).val < win0_2.index ⟨(i 0).val / 2000, _⟩ (0 : Fin 2) * 2000 + 2000
      rw [e4]; show (i 0).val / 2000 * 2000 ≤ (i 0).val ∧ (i 0).val < (i 0).val / 2000 * 2000 + 2000; omega
    | ⟨1, _⟩ =>
      show win0_2.index ⟨(i 0).val / 2000, _⟩ (1 : Fin 2) * 128 ≤ (i 1).val ∧ (i 1).val < win0_2.index ⟨(i 0).val / 2000, _⟩ (1 : Fin 2) * 128 + 128
      rw [e5]; omega

/-! ## Stage 2: a block of 2000 node rows times the weight matrix -/

/-- The stage's arithmetic at row p, column q of a block: the sum over k of the block's entry (p, k) times the
    weight's entry (k, q). The two narrowings to a shorter float format are the identity on extended reals, and the
    product is accumulated into zero. -/
theorem pay2_apply (a : Vec Ideal S2000x128 .f32) (w : Vec Ideal S128x128 .f32) (p : Fin 2000) (q : Fin 128) :
    k2_pay1 (F := Ideal) a w (ix2 p q) = ∑ k : Fin 128, a (ix2 p k) * w (ix2 k q) := by
  unfold k2_pay1
  rw [shapeCast_self]
  refine (Ideal.matmul_constant_zero_apply dot_S2000x128_S128x128_S2000x128_1_0_0_1_n_n none _ _ (ix2 p q)).trans ?_
  rw [← Equiv.sum_comp (ValueIdx.contrEquiv1 dot_S2000x128_S128x128_S2000x128_1_0_0_1_n_n 128 rfl rfl).symm]
  refine Finset.sum_congr rfl fun k _ => ?_
  have hk := ValueIdx.contrEquiv1_symm_val dot_S2000x128_S128x128_S2000x128_1_0_0_1_n_n 128 rfl rfl k
  have el : dot_S2000x128_S128x128_S2000x128_1_0_0_1_n_n.lhsIdx (ix2 p q) ((ValueIdx.contrEquiv1 dot_S2000x128_S128x128_S2000x128_1_0_0_1_n_n 128 rfl rfl).symm k) = ix2 p k := funext fun a => Fin.ext (by
    match a with
    | ⟨0, _⟩ => exact lhs_0 _ _
    | ⟨1, _⟩ => exact (lhs_1 _ _).trans hk)
  have er : dot_S2000x128_S128x128_S2000x128_1_0_0_1_n_n.rhsIdx (ix2 p q) ((ValueIdx.contrEquiv1 dot_S2000x128_S128x128_S2000x128_1_0_0_1_n_n 128 rfl rfl).symm k) = ix2 k q := funext fun a => Fin.ext (by
    match a with
    | ⟨0, _⟩ => exact (rhs_0 _ _).trans hk
    | ⟨1, _⟩ => exact rhs_1 _ _)
  rw [truncf_apply, truncf_apply, el, er]

/-- If a block `a` holds the entries of the array `A` that an embedding `e` of block positions picks out, `e` shifts
    the row by a fixed base and keeps the column, and the weight block is the whole weight matrix `W`, then the
    stage's result at block position j is `lin A W` at position `e j`: row `e j` of `A` is row j of the block. -/
theorem pay2_blk (A : Vec Ideal S50000x128 .f32) (W : Vec Ideal S128x128 .f32) (a : Vec Ideal S2000x128 .f32) (w : Vec Ideal S128x128 .f32)
    (e : S2000x128.Idx → S50000x128.Idx) (base : Nat) (ha : ∀ j, a j = A (e j)) (hw : ∀ k, w k = W k)
    (he0 : ∀ j, ((e j) 0).val = base + (j 0).val) (he1 : ∀ j, ((e j) 1).val = (j 1).val) (j : S2000x128.Idx) :
    k2_pay1 (F := Ideal) a w j = Cert.Gcn.lin A W (e j) := by
  obtain ⟨p, q, rfl⟩ : ∃ (p : Fin 2000) (q : Fin 128), j = ix2 p q := ⟨j 0, j 1, eq_ix2 j⟩
  rw [pay2_apply]
  show _ = ∑ k : Fin 128, A (ix2 ((e (ix2 p q)) 0) k) * W (ix2 k ((e (ix2 p q)) 1))
  refine Finset.sum_congr rfl fun k _ => ?_
  have h1 : ((e (ix2 p q)) 1 : Fin 128) = q := Fin.ext (he1 (ix2 p q))
  have hrow : e (ix2 p k) = ix2 ((e (ix2 p q)) 0) k := funext fun d => Fin.ext (by
    match d with
    | ⟨0, _⟩ => exact (he0 (ix2 p k)).trans (he0 (ix2 p q)).symm
    | ⟨1, _⟩ => exact he1 (ix2 p k))
  rw [ha, hw, hrow]
  exact congrArg (fun z : Fin 128 => A (ix2 ((e (ix2 p q)) 0) k) * W (ix2 k z)) h1.symm

/-- The block positions, decided once over the 25 grid points: the input and the output sit at block row t, block
    column 0; the weight matrix is one block, always at (0, 0). -/
theorem idx_facts2 : ∀ t : Fin cfg2.N, win2_0.index t (0 : Fin 2) = t.val ∧ win2_0.index t (1 : Fin 2) = 0
    ∧ win2_1.index t (0 : Fin 2) = 0 ∧ win2_1.index t (1 : Fin 2) = 0
    ∧ win2_2.index t (0 : Fin 2) = t.val ∧ win2_2.index t (1 : Fin 2) = 0 :=
  (by decide +kernel : ∀ t : Fin grid2.N, _)

/-- What grid point t writes back is block t of `lin` of the two arrays the stage reads: rows 2000·t to
    2000·t + 1999 of the input are the rows the output block covers, and the weight block is the whole matrix. -/
theorem flushed2_eq (c : Dev nD) (t : Fin cfg2.N) :
    (dat2 (F := Ideal) V c).flushed 2 t = ((cfg2.win 2).blk t).view.read (Elt Ideal) (Cert.Gcn.lin (V c main_v45) (V c main_arg4)) := by
  show (cfg2.win 2).cut (grid2.coords t) ((dat2 V c).after 2 t) = _
  rw [after2_2]
  unfold out2_2
  rw [View.canon_unit_zero hz]
  simp only [View.ld_unit_zero (S := S2000x128) hz, View.ld_unit_zero (S := S128x128) hz]
  obtain ⟨e0, e1, e2, e3, e4, e5⟩ := idx_facts2 t
  funext j
  show k2_pay1 (iblk2 V c 0 t) (iblk2 V c 1 t) j = Cert.Gcn.lin (V c main_v45) (V c main_arg4) (((cfg2.win 2).blk t).view.emb j)
  refine pay2_blk (V c main_v45) (V c main_arg4) (iblk2 V c 0 t) (iblk2 V c 1 t) (((cfg2.win 2).blk t).view.emb)
    (win2_2.index t (0 : Fin 2) * 2000) ?_ ?_ ?_ ?_ j
  · intro y
    show V c main_v45 (((cfg2.win 0).blk t).view.emb y) = V c main_v45 (((cfg2.win 2).blk t).view.emb y)
    refine congrArg _ (funext fun a => Fin.ext ?_)
    match a with
    | ⟨0, _⟩ => show win2_0.index t (0 : Fin 2) * 2000 + 1 * (y 0).val = win2_2.index t (0 : Fin 2) * 2000 + 1 * (y 0).val; omega
    | ⟨1, _⟩ => show win2_0.index t (1 : Fin 2) * 128 + 1 * (y 1).val = win2_2.index t (1 : Fin 2) * 128 + 1 * (y 1).val; omega
  · intro k
    show V c main_arg4 (((cfg2.win 1).blk t).view.emb k) = V c main_arg4 k
    refine congrArg _ (funext fun a => Fin.ext ?_)
    match a with
    | ⟨0, _⟩ => show win2_1.index t (0 : Fin 2) * 128 + 1 * (k 0).val = (k 0).val; omega
    | ⟨1, _⟩ => show win2_1.index t (1 : Fin 2) * 128 + 1 * (k 1).val = (k 1).val; omega
  · intro y
    show win2_2.index t (0 : Fin 2) * 2000 + 1 * (y 0).val = win2_2.index t (0 : Fin 2) * 2000 + (y 0).val; omega
  · intro y
    show win2_2.index t (1 : Fin 2) * 128 + 1 * (y 1).val = (y 1).val; omega

/-- A position of the output array lies in grid point t's block exactly when each coordinate lies in the block's
    range on its axis. -/
theorem mem_blk2 (t : Fin cfg2.N) (i : S50000x128.Idx) :
    i ∈ ((cfg2.win 2).blk t).view.set ↔ ∀ a : Fin 2, win2_2.index t a * S2000x128.size a ≤ (i a).val ∧ (i a).val < win2_2.index t a * S2000x128.size a + S2000x128.size a := by
  show i ∈ ((View.whole main_v46).slice (win2_2.rect t)).set ↔ _
  rw [View.set_slice_whole, Rect.mem_set_unit]
  exact Iff.rfl

/-- The 25 blocks of 2000 rows tile the 50000 rows (row r lies in block r / 2000), so after the stage the output
    array holds `lin` of the two arrays the stage reads, as the stage found them. -/
theorem final2 (c : Dev nD) : (dat2 (F := Ideal) V c).arrAt 2 cfg2.N = Cert.Gcn.lin (V c main_v45) (V c main_arg4) :=
  (dat2 V c).arrAt_eq_of_cover 2 _ (fun t _ => flushed2_eq V c t) fun i => by
    have hi0 : (i 0).val < 50000 := (i 0).isLt
    have hi1 : (i 1).val < 128 := (i 1).isLt
    have hN : cfg2.N = 25 := N_2
    refine ⟨⟨(i 0).val / 2000, by rw [hN]; omega⟩, flush2_2 _, ?_⟩
    rw [mem_blk2]
    obtain ⟨e0, e1, e2, e3, e4, e5⟩ := idx_facts2 ⟨(i 0).val / 2000, by rw [hN]; omega⟩
    intro a
    match a with
    | ⟨0, _⟩ =>
      show win2_2.index ⟨(i 0).val / 2000, _⟩ (0 : Fin 2) * 2000 ≤ (i 0).val ∧ (i 0).val < win2_2.index ⟨(i 0).val / 2000, _⟩ (0 : Fin 2) * 2000 + 2000
      rw [e4]; show (i 0).val / 2000 * 2000 ≤ (i 0).val ∧ (i 0).val < (i 0).val / 2000 * 2000 + 2000; omega
    | ⟨1, _⟩ =>
      show win2_2.index ⟨(i 0).val / 2000, _⟩ (1 : Fin 2) * 128 ≤ (i 1).val ∧ (i 1).val < win2_2.index ⟨(i 0).val / 2000, _⟩ (1 : Fin 2) * 128 + 128
      rw [e5]; omega

end Cert.KernelIdeal.Mat

end
-- ==== Proof.Bias.lean ====
/-
  The two bias stages of the program, each a grid of 25 points over blocks of 2000 node rows: what the output
  array holds after the stage, as one function of the arrays the stage reads.
  Stage 1 adds the first layer's bias row to every row and clamps at zero; stage 3 adds the second layer's bias row.
  A grid point reads rows 2000·t … 2000·t + 1999 of its input and the whole bias row, and writes the same rows of
  its output; entry (r, c) of the result depends on entry (r, c) of the input and entry (0, c) of the bias row only.
  Every statement is at an arbitrary contents `V` of the memory when the stage is entered.
-/
import proofs.«107226_j27633819583001_1_alg».proof.Proof.Gen.KernelIdeal.Frame
import proofs.«107226_j27633819583001_1_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Bias

open Cert.KernelIdeal Cert.KernelIdeal.Gen
open Idealize.ShloMosaic Idealize.ShloMosaic.TcCoe Idealize.ShloMosaic.ValueIdx Idealize.ShloMosaic.Pipeline

/-- A block's own rectangle starts at the origin. -/
theorem hz : (![0, 0] : Fin 2 → Nat) = fun _ => 0 := funext fun a => by fin_cases a <;> rfl

variable (V : (c : Dev nD) → (b : Ref sig .tc) → Buf (Elt Ideal) ((c : Thread nD τ).loc b))

/-! ## Stage 1: the bias row added to every row of the block, then the clamp at zero -/

/-- The stage's arithmetic at row p, column q of a block: the block's entry plus the bias row's entry of column q,
    clamped at zero from below (the zero word read as the real 0). The bias block has one row, and
    broadcasting it down the 2000 rows reads row 0 at every row. -/
theorem pay1_apply (a : Vec Ideal S2000x128 .f32) (b : Vec Ideal S1x128 .f32) (p : Fin 2000) (q : Fin 128) :
    k1_pay1 (F := Ideal) a b (ix2 p q) = max (a (ix2 p q) + b (ix2 (0 : Fin 1) q)) 0 := by
  unfold k1_pay1
  rw [maximumf_apply, broadcast_apply, addf_apply, shapeCast_self, shapeCast_self]
  show max (a (ix2 p q) + broadcastTo S2000x128 b broadcasts_S1x128_S2000x128 (ix2 p q)) (Ideal.ofBits .f32 0x00000000#32) = _
  rw [Ideal.ofBits_zero_f32]
  refine congrArg (fun z => max (a (ix2 p q) + z) 0) ?_
  refine broadcastTo_apply b _ (ix2 p q) (ix2 (0 : Fin 1) q) fun d => ?_
  match d with
  | ⟨0, _⟩ => rfl
  | ⟨1, _⟩ => rfl

/-- If a block `a` holds the entries of the array `A` that an embedding `e` of block positions picks out, `e` keeps
    the column, and the bias block is the bias row `B`, then the stage's result at block position j is the
    whole-array function `reluAddRow A B` at position `e j`. -/
theorem pay1_blk (A : Vec Ideal S50000x128 .f32) (B : Vec Ideal S1x128 .f32) (a : Vec Ideal S2000x128 .f32) (b : Vec Ideal S1x128 .f32)
    (e : S2000x128.Idx → S50000x128.Idx) (ha : ∀ j, a j = A (e j)) (hb : ∀ k, b k = B k)
    (he1 : ∀ j, ((e j) 1).val = (j 1).val) (j : S2000x128.Idx) :
    k1_pay1 (F := Ideal) a b j = Cert.Gcn.reluAddRow A B (e j) := by
  obtain ⟨p, q, rfl⟩ : ∃ (p : Fin 2000) (q : Fin 128), j = ix2 p q := ⟨j 0, j 1, eq_ix2 j⟩
  rw [pay1_apply, ha, hb]
  have h1 : ((e (ix2 p q)) 1 : Fin 128) = q := Fin.ext (he1 (ix2 p q))
  exact congrArg (fun z : Fin 128 => max (A (e (ix2 p q)) + B (ix2 (0 : Fin 1) z)) 0) h1.symm

/-- The block positions, decided once over the 25 grid points: the input and the output sit at block row t, block
    column 0; the bias row always at block (0, 0). -/
theorem idx_facts1 : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = t.val ∧ win1_2.index t (1 : Fin 2) = 0 :=
  (by decide +kernel : ∀ t : Fin grid1.N, _)

/-- What grid point t writes back is block t of `reluAddRow` of the two arrays the stage reads: rows 2000·t to
    2000·t + 1999 of the input are the rows the output block covers, and the bias block is the whole bias row. -/
theorem flushed1_eq (c : Dev nD) (t : Fin cfg1.N) :
    (dat1 (F := Ideal) V c).flushed 2 t = ((cfg1.win 2).blk t).view.read (Elt Ideal) (Cert.Gcn.reluAddRow (V c main_v43) (V c main_v44)) := by
  show (cfg1.win 2).cut (grid1.coords t) ((dat1 V c).after 2 t) = _
  rw [after1_2]
  unfold out1_2
  rw [View.canon_unit_zero hz]
  simp only [View.ld_unit_zero (S := S2000x128) hz, View.ld_unit_zero (S := S1x128) hz]
  obtain ⟨e0, e1, e2, e3, e4, e5⟩ := idx_facts1 t
  funext j
  show k1_pay1 (iblk1 V c 0 t) (iblk1 V c 1 t) j = Cert.Gcn.reluAddRow (V c main_v43) (V c main_v44) (((cfg1.win 2).blk t).view.emb j)
  refine pay1_blk (V c main_v43) (V c main_v44) (iblk1 V c 0 t) (iblk1 V c 1 t) (((cfg1.win 2).blk t).view.emb) ?_ ?_ ?_ j
  · intro y
    show V c main_v43 (((cfg1.win 0).blk t).view.emb y) = V c main_v43 (((cfg1.win 2).blk t).view.emb y)
    refine congrArg _ (funext fun a => Fin.ext ?_)
    match a with
    | ⟨0, _⟩ => show win1_0.index t (0 : Fin 2) * 2000 + 1 * (y 0).val = win1_2.index t (0 : Fin 2) * 2000 + 1 * (y 0).val; omega
    | ⟨1, _⟩ => show win1_0.index t (1 : Fin 2) * 128 + 1 * (y 1).val = win1_2.index t (1 : Fin 2) * 128 + 1 * (y 1).val; omega
  · intro k
    show V c main_v44 (((cfg1.win 1).blk t).view.emb k) = V c main_v44 k
    refine congrArg _ (funext fun a => Fin.ext ?_)
    match a with
    | ⟨0, _⟩ => show win1_1.index t (0 : Fin 2) * 1 + 1 * (k 0).val = (k 0).val; omega
    | ⟨1, _⟩ => show win1_1.index t (1 : Fin 2) * 128 + 1 * (k 1).val = (k 1).val; omega
  · intro y
    show win1_2.index t (1 : Fin 2) * 128 + 1 * (y 1).val = (y 1).val; omega

/-- A position of the output array lies in grid point t's block exactly when each coordinate lies in the block's
    range on its axis. -/
theorem mem_blk1 (t : Fin cfg1.N) (i : S50000x128.Idx) :
    i ∈ ((cfg1.win 2).blk t).view.set ↔ ∀ a : Fin 2, win1_2.index t a * S2000x128.size a ≤ (i a).val ∧ (i a).val < win1_2.index t a * S2000x128.size a + S2000x128.size a := by
  show i ∈ ((View.whole main_v45).slice (win1_2.rect t)).set ↔ _
  rw [View.set_slice_whole, Rect.mem_set_unit]
  exact Iff.rfl

/-- The 25 blocks of 2000 rows tile the 50000 rows (row r lies in block r / 2000), so after the stage the output
    array holds `reluAddRow` of the two arrays the stage reads, as the stage found them. -/
theorem final1 (c : Dev nD) : (dat1 (F := Ideal) V c).arrAt 2 cfg1.N = Cert.Gcn.reluAddRow (V c main_v43) (V c main_v44) :=
  (dat1 V c).arrAt_eq_of_cover 2 _ (fun t _ => flushed1_eq V c t) fun i => by
    have hi0 : (i 0).val < 50000 := (i 0).isLt
    have hi1 : (i 1).val < 128 := (i 1).isLt
    have hN : cfg1.N = 25 := N_1
    refine ⟨⟨(i 0).val / 2000, by rw [hN]; omega⟩, flush1_2 _, ?_⟩
    rw [mem_blk1]
    obtain ⟨e0, e1, e2, e3, e4, e5⟩ := idx_facts1 ⟨(i 0).val / 2000, by rw [hN]; omega⟩
    intro a
    match a with
    | ⟨0, _⟩ =>
      show win1_2.index ⟨(i 0).val / 2000, _⟩ (0 : Fin 2) * 2000 ≤ (i 0).val ∧ (i 0).val < win1_2.index ⟨(i 0).val / 2000, _⟩ (0 : Fin 2) * 2000 + 2000
      rw [e4]; show (i 0).val / 2000 * 2000 ≤ (i 0).val ∧ (i 0).val < (i 0).val / 2000 * 2000 + 2000; omega
    | ⟨1, _⟩ =>
      show win1_2.index ⟨(i 0).val / 2000, _⟩ (1 : Fin 2) * 128 ≤ (i 1).val ∧ (i 1).val < win1_2.index ⟨(i 0).val / 2000, _⟩ (1 : Fin 2) * 128 + 128
      rw [e5]; omega

/-! ## Stage 3: the bias row added to every row of the block -/

/-- The stage's arithmetic at row p, column q of a block: the block's entry plus the bias row's entry of column q. The bias block has one row, and
    broadcasting it down the 2000 rows reads row 0 at every row. -/
theorem pay3_apply (a : Vec Ideal S2000x128 .f32) (b : Vec Ideal S1x128 .f32) (p : Fin 2000) (q : Fin 128) :
    k3_pay1 (F := Ideal) a b (ix2 p q) = a (ix2 p q) + b (ix2 (0 : Fin 1) q) := by
  unfold k3_pay1
  rw [addf_apply, shapeCast_self, shapeCast_self]
  refine congrArg (a (ix2 p q) + ·) ?_
  refine broadcastTo_apply b _ (ix2 p q) (ix2 (0 : Fin 1) q) fun d => ?_
  match d with
  | ⟨0, _⟩ => rfl
  | ⟨1, _⟩ => rfl

/-- If a block `a` holds the entries of the array `A` that an embedding `e` of block positions picks out, `e` keeps
    the column, and the bias block is the bias row `B`, then the stage's result at block position j is the
    whole-array function `addRow A B` at position `e j`. -/
theorem pay3_blk (A : Vec Ideal S50000x128 .f32) (B : Vec Ideal S1x128 .f32) (a : Vec Ideal S2000x128 .f32) (b : Vec Ideal S1x128 .f32)
    (e : S2000x128.Idx → S50000x128.Idx) (ha : ∀ j, a j = A (e j)) (hb : ∀ k, b k = B k)
    (he1 : ∀ j, ((e j) 1).val = (j 1).val) (j : S2000x128.Idx) :
    k3_pay1 (F := Ideal) a b j = Cert.Gcn.addRow A B (e j) := by
  obtain ⟨p, q, rfl⟩ : ∃ (p : Fin 2000) (q : Fin 128), j = ix2 p q := ⟨j 0, j 1, eq_ix2 j⟩
  rw [pay3_apply, ha, hb]
  have h1 : ((e (ix2 p q)) 1 : Fin 128) = q := Fin.ext (he1 (ix2 p q))
  exact congrArg (fun z : Fin 128 => A (e (ix2 p q)) + B (ix2 (0 : Fin 1) z)) h1.symm

/-- The block positions, decided once over the 25 grid points: the input and the output sit at block row t, block
    column 0; the bias row always at block (0, 0). -/
theorem idx_facts3 : ∀ t : Fin cfg3.N, win3_0.index t (0 : Fin 2) = t.val ∧ win3_0.index t (1 : Fin 2) = 0
    ∧ win3_1.index t (0 : Fin 2) = 0 ∧ win3_1.index t (1 : Fin 2) = 0
    ∧ win3_2.index t (0 : Fin 2) = t.val ∧ win3_2.index t (1 : Fin 2) = 0 :=
  (by decide +kernel : ∀ t : Fin grid3.N, _)

/-- What grid point t writes back is block t of `addRow` of the two arrays the stage reads: rows 2000·t to
    2000·t + 1999 of the input are the rows the output block covers, and the bias block is the whole bias row. -/
theorem flushed3_eq (c : Dev nD) (t : Fin cfg3.N) :
    (dat3 (F := Ideal) V c).flushed 2 t = ((cfg3.win 2).blk t).view.read (Elt Ideal) (Cert.Gcn.addRow (V c main_v59) (V c main_v60)) := by
  show (cfg3.win 2).cut (grid3.coords t) ((dat3 V c).after 2 t) = _
  rw [after3_2]
  unfold out3_2
  rw [View.canon_unit_zero hz]
  simp only [View.ld_unit_zero (S := S2000x128) hz, View.ld_unit_zero (S := S1x128) hz]
  obtain ⟨e0, e1, e2, e3, e4, e5⟩ := idx_facts3 t
  funext j
  show k3_pay1 (iblk3 V c 0 t) (iblk3 V c 1 t) j = Cert.Gcn.addRow (V c main_v59) (V c main_v60) (((cfg3.win 2).blk t).view.emb j)
  refine pay3_blk (V c main_v59) (V c main_v60) (iblk3 V c 0 t) (iblk3 V c 1 t) (((cfg3.win 2).blk t).view.emb) ?_ ?_ ?_ j
  · intro y
    show V c main_v59 (((cfg3.win 0).blk t).view.emb y) = V c main_v59 (((cfg3.win 2).blk t).view.emb y)
    refine congrArg _ (funext fun a => Fin.ext ?_)
    match a with
    | ⟨0, _⟩ => show win3_0.index t (0 : Fin 2) * 2000 + 1 * (y 0).val = win3_2.index t (0 : Fin 2) * 2000 + 1 * (y 0).val; omega
    | ⟨1, _⟩ => show win3_0.index t (1 : Fin 2) * 128 + 1 * (y 1).val = win3_2.index t (1 : Fin 2) * 128 + 1 * (y 1).val; omega
  · intro k
    show V c main_v60 (((cfg3.win 1).blk t).view.emb k) = V c main_v60 k
    refine congrArg _ (funext fun a => Fin.ext ?_)
    match a with
    | ⟨0, _⟩ => show win3_1.index t (0 : Fin 2) * 1 + 1 * (k 0).val = (k 0).val; omega
    | ⟨1, _⟩ => show win3_1.index t (1 : Fin 2) * 128 + 1 * (k 1).val = (k 1).val; omega
  · intro y
    show win3_2.index t (1 : Fin 2) * 128 + 1 * (y 1).val = (y 1).val; omega

/-- A position of the output array lies in grid point t's block exactly when each coordinate lies in the block's
    range on its axis. -/
theorem mem_blk3 (t : Fin cfg3.N) (i : S50000x128.Idx) :
    i ∈ ((cfg3.win 2).blk t).view.set ↔ ∀ a : Fin 2, win3_2.index t a * S2000x128.size a ≤ (i a).val ∧ (i a).val < win3_2.index t a * S2000x128.size a + S2000x128.size a := by
  show i ∈ ((View.whole main_v61).slice (win3_2.rect t)).set ↔ _
  rw [View.set_slice_whole, Rect.mem_set_unit]
  exact Iff.rfl

/-- The 25 blocks of 2000 rows tile the 50000 rows (row r lies in block r / 2000), so after the stage the output
    array holds `addRow` of the two arrays the stage reads, as the stage found them. -/
theorem final3 (c : Dev nD) : (dat3 (F := Ideal) V c).arrAt 2 cfg3.N = Cert.Gcn.addRow (V c main_v59) (V c main_v60) :=
  (dat3 V c).arrAt_eq_of_cover 2 _ (fun t _ => flushed3_eq V c t) fun i => by
    have hi0 : (i 0).val < 50000 := (i 0).isLt
    have hi1 : (i 1).val < 128 := (i 1).isLt
    have hN : cfg3.N = 25 := N_3
    refine ⟨⟨(i 0).val / 2000, by rw [hN]; omega⟩, flush3_2 _, ?_⟩
    rw [mem_blk3]
    obtain ⟨e0, e1, e2, e3, e4, e5⟩ := idx_facts3 ⟨(i 0).val / 2000, by rw [hN]; omega⟩
    intro a
    match a with
    | ⟨0, _⟩ =>
      show win3_2.index ⟨(i 0).val / 2000, _⟩ (0 : Fin 2) * 2000 ≤ (i 0).val ∧ (i 0).val < win3_2.index ⟨(i 0).val / 2000, _⟩ (0 : Fin 2) * 2000 + 2000
      rw [e4]; show (i 0).val / 2000 * 2000 ≤ (i 0).val ∧ (i 0).val < (i 0).val / 2000 * 2000 + 2000; omega
    | ⟨1, _⟩ =>
      show win3_2.index ⟨(i 0).val / 2000, _⟩ (1 : Fin 2) * 128 ≤ (i 1).val ∧ (i 1).val < win3_2.index ⟨(i 0).val / 2000, _⟩ (1 : Fin 2) * 128 + 128
      rw [e5]; omega

end Cert.KernelIdeal.Bias

end
-- ==== Proof.KernelValue.lean ====
/-
  The kernel program's result, read as one function of its arguments: the two-layer graph convolution `gcn`.
  The program alternates stretches of host operations with its four tiled stages, and the memory at each boundary is
  a fold from the launch memory. Read back through that fold:
  * before the first stage the host computes the graph side once (source and destination vectors, edge weights),
    and nothing afterwards writes those three arrays or the arguments;
  * stage 0 leaves x · W1; the next stretch aggregates it over the graph and reshapes the first bias to a row;
  * stage 1 adds that row and clamps at zero; stage 2 multiplies by W2; the next stretch aggregates again and
    reshapes the second bias; stage 3 adds it.
  Each stage's output array is the whole-array function of the arrays it reads (the matrix and bias stage facts), and
  each host stretch is the program's own operations applied in order.
-/
import proofs.«107226_j27633819583001_1_alg».proof.Proof.Gen.KernelIdeal.Frame
import proofs.«107226_j27633819583001_1_alg».proof.Proof.Model
import proofs.«107226_j27633819583001_1_alg».proof.Proof.Mat
import proofs.«107226_j27633819583001_1_alg».proof.Proof.Bias
import Idealize.ShloMosaic.Lib.StableHlo.Run

set_option maxRecDepth 16384

noncomputable section

namespace Cert.KernelIdeal.Val

open Cert.KernelIdeal Cert.KernelIdeal.Gen
open Idealize.ShloMosaic Idealize.ShloMosaic.TcCoe Idealize.ShloMosaic.StableHlo Idealize.SL.Sem

section AnyInstance

variable {F : FTy → Type} [FloatOps F]
variable (m : (ℓ : Loc nD τ sig) → Buf (Elt F) ℓ) (ρ : Dev nD → PrngReg)

/-! ## Before the first stage: the graph side, and the arguments untouched -/

/-- The source vector: row 0 of the edge list, then the self loops. -/
theorem W3_src (c : Dev nD) : W3 m ρ c (Proc.devRef .tc main_v5) = Chain.srcIdx (m ((c : Thread nD τ).loc main_arg1)) := by
  dsimp only [W3, W2, W1, hostOps0, hostOps0_1, hostOps0_2]
  after_results
  rfl

/-- The destination vector: row 1 of the edge list, then the self loops. -/
theorem W3_dst (c : Dev nD) : W3 m ρ c (Proc.devRef .tc main_v6) = Chain.dstIdx (m ((c : Thread nD τ).loc main_arg1)) := by
  dsimp only [W3, W2, W1, hostOps0, hostOps0_1, hostOps0_2]
  after_results
  rfl

set_option maxHeartbeats 2000000 in
/-- The edge weights. -/
theorem W3_norm (c : Dev nD) : W3 m ρ c (Proc.devRef .tc main_v29)
    = Chain.norm (Chain.srcIdx (m ((c : Thread nD τ).loc main_arg1))) (Chain.dstIdx (m ((c : Thread nD τ).loc main_arg1))) := by
  dsimp only [W3, W2, W1, hostOps0, hostOps0_1, hostOps0_2]
  after_results_simp
  rfl

theorem W3_arg0 (c : Dev nD) : W3 m ρ c (Proc.devRef .tc main_arg0) = m ((c : Thread nD τ).loc main_arg0) := by
  dsimp only [W3, W2, W1, hostOps0, hostOps0_1, hostOps0_2]
  after_results

theorem W3_arg2 (c : Dev nD) : W3 m ρ c (Proc.devRef .tc main_arg2) = m ((c : Thread nD τ).loc main_arg2) := by
  dsimp only [W3, W2, W1, hostOps0, hostOps0_1, hostOps0_2]
  after_results

theorem W3_arg3 (c : Dev nD) : W3 m ρ c (Proc.devRef .tc main_arg3) = m ((c : Thread nD τ).loc main_arg3) := by
  dsimp only [W3, W2, W1, hostOps0, hostOps0_1, hostOps0_2]
  after_results

theorem W3_arg4 (c : Dev nD) : W3 m ρ c (Proc.devRef .tc main_arg4) = m ((c : Thread nD τ).loc main_arg4) := by
  dsimp only [W3, W2, W1, hostOps0, hostOps0_1, hostOps0_2]
  after_results

theorem W3_arg5 (c : Dev nD) : W3 m ρ c (Proc.devRef .tc main_arg5) = m ((c : Thread nD τ).loc main_arg5) := by
  dsimp only [W3, W2, W1, hostOps0, hostOps0_1, hostOps0_2]
  after_results

/-! ## Between stages 0 and 1: the first aggregation and the first bias as a row -/

set_option maxHeartbeats 2000000 in
theorem W5_agg (c : Dev nD) : W5 m ρ c (Proc.devRef .tc main_v43)
    = Chain.agg (W4 m ρ c (Proc.devRef .tc main_v30)) (W4 m ρ c (Proc.devRef .tc main_v5)) (W4 m ρ c (Proc.devRef .tc main_v6)) (W4 m ρ c (Proc.devRef .tc main_v29)) := by
  dsimp only [W5, hostOps1]
  after_results_simp
  rfl

theorem W5_bias (c : Dev nD) : W5 m ρ c (Proc.devRef .tc main_v44)
    = shapeCast S1x128 (W4 m ρ c (Proc.devRef .tc main_arg3)) shapeCasts_S128_S1x128 := by
  dsimp only [W5, hostOps1]
  after_results
  rfl

theorem W5_keep_main_v5 (c : Dev nD) : W5 m ρ c (Proc.devRef .tc main_v5) = W4 m ρ c (Proc.devRef .tc main_v5) := by
  dsimp only [W5, hostOps1]
  after_results

theorem W5_keep_main_v6 (c : Dev nD) : W5 m ρ c (Proc.devRef .tc main_v6) = W4 m ρ c (Proc.devRef .tc main_v6) := by
  dsimp only [W5, hostOps1]
  after_results

theorem W5_keep_main_v29 (c : Dev nD) : W5 m ρ c (Proc.devRef .tc main_v29) = W4 m ρ c (Proc.devRef .tc main_v29) := by
  dsimp only [W5, hostOps1]
  after_results

theorem W5_keep_main_arg4 (c : Dev nD) : W5 m ρ c (Proc.devRef .tc main_arg4) = W4 m ρ c (Proc.devRef .tc main_arg4) := by
  dsimp only [W5, hostOps1]
  after_results

theorem W5_keep_main_arg5 (c : Dev nD) : W5 m ρ c (Proc.devRef .tc main_arg5) = W4 m ρ c (Proc.devRef .tc main_arg5) := by
  dsimp only [W5, hostOps1]
  after_results

/-- An array that no stage up to stage 2 reads through an output window, and that the stretch after stage 0 does not
    write, is at stage 2's exit what it was before stage 0. -/
theorem keep7 (c : Dev nD) (b : Ref sig .tc) (h0 : ∀ w, Pipeline.arrRef spec0 w ≠ b) (h1 : ∀ w, Pipeline.arrRef spec1 w ≠ b)
    (h2 : ∀ w, Pipeline.arrRef spec2 w ≠ b) (h5 : W5 m ρ c (Proc.devRef .tc b) = W4 m ρ c (Proc.devRef .tc b)) :
    W7 m ρ c (Proc.devRef .tc b) = W3 m ρ c (Proc.devRef .tc b) :=
  (W7_of_ne m ρ c b h2).trans ((W6_of_ne m ρ c b h1).trans (h5.trans (W4_of_ne m ρ c b h0)))

/-! ## Between stages 2 and 3: the second aggregation and the second bias as a row -/

set_option maxHeartbeats 2000000 in
theorem W8_agg (c : Dev nD) : W8 m ρ c (Proc.devRef .tc main_v59)
    = Chain.agg (W7 m ρ c (Proc.devRef .tc main_v46)) (W7 m ρ c (Proc.devRef .tc main_v5)) (W7 m ρ c (Proc.devRef .tc main_v6)) (W7 m ρ c (Proc.devRef .tc main_v29)) := by
  dsimp only [W8, hostOps3]
  after_results_simp
  rfl

theorem W8_bias (c : Dev nD) : W8 m ρ c (Proc.devRef .tc main_v60)
    = shapeCast S1x128 (W7 m ρ c (Proc.devRef .tc main_arg5)) shapeCasts_S128_S1x128 := by
  dsimp only [W8, hostOps3]
  after_results
  rfl

end AnyInstance

/-! ## The result -/

open Cert.Gcn in
/-- THE KERNEL'S VALUE: at the program's return the result array holds `gcn` of the six arguments. -/
theorem kernel_value (m : (ℓ : Loc nD τ sig) → Buf (Elt Ideal) ℓ) (ρ : Dev nD → PrngReg) (c : Dev nD) :
    W9 m ρ c (Proc.devRef .tc main_v61)
      = gcn (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) := by
  -- the graph side at the two places it is read
  have s4 : W4 m ρ c (Proc.devRef .tc main_v5) = Chain.srcIdx (m ((c : Thread nD τ).loc main_arg1)) := (W4_of_ne m ρ c main_v5 (by decide)).trans (W3_src m ρ c)
  have d4 : W4 m ρ c (Proc.devRef .tc main_v6) = Chain.dstIdx (m ((c : Thread nD τ).loc main_arg1)) := (W4_of_ne m ρ c main_v6 (by decide)).trans (W3_dst m ρ c)
  have n4 : W4 m ρ c (Proc.devRef .tc main_v29) = Chain.norm (Chain.srcIdx (m ((c : Thread nD τ).loc main_arg1))) (Chain.dstIdx (m ((c : Thread nD τ).loc main_arg1))) :=
    (W4_of_ne m ρ c main_v29 (by decide)).trans (W3_norm m ρ c)
  have s7 : W7 m ρ c (Proc.devRef .tc main_v5) = Chain.srcIdx (m ((c : Thread nD τ).loc main_arg1)) :=
    (keep7 m ρ c main_v5 (by decide) (by decide) (by decide) (W5_keep_main_v5 m ρ c)).trans (W3_src m ρ c)
  have d7 : W7 m ρ c (Proc.devRef .tc main_v6) = Chain.dstIdx (m ((c : Thread nD τ).loc main_arg1)) :=
    (keep7 m ρ c main_v6 (by decide) (by decide) (by decide) (W5_keep_main_v6 m ρ c)).trans (W3_dst m ρ c)
  have n7 : W7 m ρ c (Proc.devRef .tc main_v29) = Chain.norm (Chain.srcIdx (m ((c : Thread nD τ).loc main_arg1))) (Chain.dstIdx (m ((c : Thread nD τ).loc main_arg1))) :=
    (keep7 m ρ c main_v29 (by decide) (by decide) (by decide) (W5_keep_main_v29 m ρ c)).trans (W3_norm m ρ c)
  -- the arguments where the later stages and stretches read them
  have a3 : W4 m ρ c (Proc.devRef .tc main_arg3) = m ((c : Thread nD τ).loc main_arg3) := (W4_of_ne m ρ c main_arg3 (by decide)).trans (W3_arg3 m ρ c)
  have a4 : W6 m ρ c (Proc.devRef .tc main_arg4) = m ((c : Thread nD τ).loc main_arg4) :=
    (W6_of_ne m ρ c main_arg4 (by decide)).trans ((W5_keep_main_arg4 m ρ c).trans ((W4_of_ne m ρ c main_arg4 (by decide)).trans (W3_arg4 m ρ c)))
  have a5 : W7 m ρ c (Proc.devRef .tc main_arg5) = m ((c : Thread nD τ).loc main_arg5) :=
    (keep7 m ρ c main_arg5 (by decide) (by decide) (by decide) (W5_keep_main_arg5 m ρ c)).trans (W3_arg5 m ρ c)
  -- stage 0: x · W1
  have e30 : W4 m ρ c (Proc.devRef .tc main_v30) = lin (m ((c : Thread nD τ).loc main_arg0)) (m ((c : Thread nD τ).loc main_arg2)) :=
    ((W4_arr m ρ c 2).trans (Mat.final0 (V3 m ρ) c)).trans (congrArg₂ lin (W3_arg0 m ρ c) (W3_arg2 m ρ c))
  -- the first aggregation and the first bias row
  have e43 : W5 m ρ c (Proc.devRef .tc main_v43) = aggOn (m ((c : Thread nD τ).loc main_arg1)) (lin (m ((c : Thread nD τ).loc main_arg0)) (m ((c : Thread nD τ).loc main_arg2))) := by
    rw [W5_agg, e30, s4, d4, n4]; rfl
  have e44 : W5 m ρ c (Proc.devRef .tc main_v44) = biasRow (m ((c : Thread nD τ).loc main_arg3)) := by
    rw [W5_bias, a3]; rfl
  -- stage 1: the bias and the clamp
  have e45 : W6 m ρ c (Proc.devRef .tc main_v45) = reluAddRow (aggOn (m ((c : Thread nD τ).loc main_arg1)) (lin (m ((c : Thread nD τ).loc main_arg0)) (m ((c : Thread nD τ).loc main_arg2)))) (biasRow (m ((c : Thread nD τ).loc main_arg3))) :=
    ((W6_arr m ρ c 2).trans (Bias.final1 (V5 m ρ) c)).trans (congrArg₂ reluAddRow e43 e44)
  -- stage 2: times W2
  have e46 : W7 m ρ c (Proc.devRef .tc main_v46)
      = lin (reluAddRow (aggOn (m ((c : Thread nD τ).loc main_arg1)) (lin (m ((c : Thread nD τ).loc main_arg0)) (m ((c : Thread nD τ).loc main_arg2)))) (biasRow (m ((c : Thread nD τ).loc main_arg3)))) (m ((c : Thread nD τ).loc main_arg4)) :=
    ((W7_arr m ρ c 2).trans (Mat.final2 (V6 m ρ) c)).trans (congrArg₂ lin e45 a4)
  -- the second aggregation and the second bias row
  have e59 : W8 m ρ c (Proc.devRef .tc main_v59)
      = aggOn (m ((c : Thread nD τ).loc main_arg1)) (lin (reluAddRow (aggOn (m ((c : Thread nD τ).loc main_arg1)) (lin (m ((c : Thread nD τ).loc main_arg0)) (m ((c : Thread nD τ).loc main_arg2)))) (biasRow (m ((c : Thread nD τ).loc main_arg3)))) (m ((c : Thread nD τ).loc main_arg4))) := by
    rw [W8_agg, e46, s7, d7, n7]; rfl
  have e60 : W8 m ρ c (Proc.devRef .tc main_v60) = biasRow (m ((c : Thread nD τ).loc main_arg5)) := by
    rw [W8_bias, a5]; rfl
  -- stage 3: the second bias
  exact ((W9_arr m ρ c 2).trans (Bias.final3 (V8 m ρ) c)).trans (congrArg₂ addRow e59 e60)

end Cert.KernelIdeal.Val

end
-- ==== Proof.RefValue.lean ====
/-
  The reference program's result, read as one function of its arguments: the two-layer graph convolution `gcn`.
  The reference computes each layer as a product over all 50000 rows at once, the aggregation over the graph, the
  bias vector broadcast first to one row and then down the rows and added, and between the layers the maximum with a
  zero array. Three facts carry it over, each index by index at the ideal instance:
  * its product is `lin`: entry (r, c) is the sum over k of x(r,k) · w(k,c), the contraction re-indexed by k;
  * a bias broadcast to a row and down the rows, added, is `addRow` of the bias as a row: both read channel c of the bias;
  * the maximum of that sum with the zero array is `reluAddRow`.
  Its aggregation is the shared chain of host operations, compared as a whole and never opened.
-/
import proofs.«107226_j27633819583001_1_alg».proof.Proof.RefRun
import proofs.«107226_j27633819583001_1_alg».proof.Proof.Model
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

open scoped BigOperators

namespace Cert.Gcn.Ref

open Cert.ReferenceIdeal Cert.ReferenceIdeal.Gen
open Idealize.ShloMosaic Idealize.ShloMosaic.TcCoe Idealize.ShloMosaic.ValueIdx Idealize.SL.Sem

/-! ## The product's operand positions, axis by axis -/

theorem lhs_0 (i : S50000x128.Idx) (q : dot_S50000x128_S128x128_S50000x128_1_0_0_1_n_n.contr.Idx) :
    (dot_S50000x128_S128x128_S50000x128_1_0_0_1_n_n.lhsIdx i q 0).val = (i 0).val := by
  unfold DotDims.lhsIdx
  rw [dif_neg (show ¬(0 : Fin S50000x128.rank) ∈ dot_S50000x128_S128x128_S50000x128_1_0_0_1_n_n.lhsBatch by decide), dif_pos (show (0 : Fin S50000x128.rank) ∈ dot_S50000x128_S128x128_S50000x128_1_0_0_1_n_n.lhsNonContracting by decide)]
  rfl
theorem lhs_1 (i : S50000x128.Idx) (q : dot_S50000x128_S128x128_S50000x128_1_0_0_1_n_n.contr.Idx) :
    (dot_S50000x128_S128x128_S50000x128_1_0_0_1_n_n.lhsIdx i q 1).val = (q ⟨0, by decide⟩).val :=
  dot_S50000x128_S128x128_S50000x128_1_0_0_1_n_n.lhsIdx_val_of_single rfl i q
theorem rhs_0 (i : S50000x128.Idx) (q : dot_S50000x128_S128x128_S50000x128_1_0_0_1_n_n.contr.Idx) :
    (dot_S50000x128_S128x128_S50000x128_1_0_0_1_n_n.rhsIdx i q 0).val = (q ⟨0, by decide⟩).val :=
  dot_S50000x128_S128x128_S50000x128_1_0_0_1_n_n.rhsIdx_val_of_single rfl i q
theorem rhs_1 (i : S50000x128.Idx) (q : dot_S50000x128_S128x128_S50000x128_1_0_0_1_n_n.contr.Idx) :
    (dot_S50000x128_S128x128_S50000x128_1_0_0_1_n_n.rhsIdx i q 1).val = (i 1).val := by
  unfold DotDims.rhsIdx
  rw [dif_neg (show ¬(1 : Fin S128x128.rank) ∈ dot_S50000x128_S128x128_S50000x128_1_0_0_1_n_n.rhsBatch by decide), dif_pos (show (1 : Fin S128x128.rank) ∈ dot_S50000x128_S128x128_S50000x128_1_0_0_1_n_n.rhsNonContracting by decide)]
  rfl

/-! ## The three bridges -/

/-- The reference's product over all rows is `lin`: at (r, c) both are the sum over k of x(r,k) · w(k,c). -/
theorem ref_lin (x : FVec Ideal S50000x128 .f32) (w : FVec Ideal S128x128 .f32) :
    Host.dotGeneral (φ₁ := .f32) (φ₂ := .f32) dot_S50000x128_S128x128_S50000x128_1_0_0_1_n_n none x w = Cert.Gcn.lin x w := by
  funext i
  obtain ⟨r, c, rfl⟩ : ∃ (r : Fin 50000) (c : Fin 128), i = ix2 r c := ⟨i 0, i 1, eq_ix2 i⟩
  rw [Cert.Gcn.lin_apply]
  refine (Ideal.dotGeneral_apply dot_S50000x128_S128x128_S50000x128_1_0_0_1_n_n none _ x w (ix2 r c)).trans ?_
  rw [← Equiv.sum_comp (ValueIdx.contrEquiv1 dot_S50000x128_S128x128_S50000x128_1_0_0_1_n_n 128 rfl rfl).symm]
  refine Finset.sum_congr rfl fun k _ => ?_
  have hk := ValueIdx.contrEquiv1_symm_val dot_S50000x128_S128x128_S50000x128_1_0_0_1_n_n 128 rfl rfl k
  have el : dot_S50000x128_S128x128_S50000x128_1_0_0_1_n_n.lhsIdx (ix2 r c) ((ValueIdx.contrEquiv1 dot_S50000x128_S128x128_S50000x128_1_0_0_1_n_n 128 rfl rfl).symm k) = ix2 r k := funext fun a => Fin.ext (by
    match a with
    | ⟨0, _⟩ => exact lhs_0 _ _
    | ⟨1, _⟩ => exact (lhs_1 _ _).trans hk)
  have er : dot_S50000x128_S128x128_S50000x128_1_0_0_1_n_n.rhsIdx (ix2 r c) ((ValueIdx.contrEquiv1 dot_S50000x128_S128x128_S50000x128_1_0_0_1_n_n 128 rfl rfl).symm k) = ix2 k c := funext fun a => Fin.ext (by
    match a with
    | ⟨0, _⟩ => exact (rhs_0 _ _).trans hk
    | ⟨1, _⟩ => exact rhs_1 _ _)
  rw [el, er]

/-- A bias vector broadcast to one row and then down the 50000 rows, added, is `addRow` of the bias as a row: at
    (r, c) the broadcast reads channel c of the bias, and so does row 0 of the bias reshaped to [1,128]. -/
theorem ref_addRow (a : Vec Ideal S50000x128 .f32) (b : Vec Ideal S128 .f32) :
    addf a (broadcastInDim S50000x128 ![0, 1] bcast_S1x128_S50000x128_0_1 (broadcastInDim S1x128 ![1] bcast_S128_S1x128_1 b))
      = Cert.Gcn.addRow a (Cert.Gcn.biasRow b) := by
  funext i
  obtain ⟨r, c, rfl⟩ : ∃ (r : Fin 50000) (c : Fin 128), i = ix2 r c := ⟨i 0, i 1, eq_ix2 i⟩
  rw [addf_apply, Cert.Gcn.addRow_apply]
  refine congrArg (a (ix2 r c) + ·) ?_
  refine (broadcastInDim_apply ![0, 1] bcast_S1x128_S50000x128_0_1 _ (ix2 r c) (ix2 (0 : Fin 1) c) (fun d => ?_)).trans ?_
  · match d with
    | ⟨0, _⟩ => rfl
    | ⟨1, _⟩ => rfl
  refine (broadcastInDim_apply ![1] bcast_S128_S1x128_1 b (ix2 (0 : Fin 1) c) (ix1 c) (fun d => ?_)).trans ?_
  · match d with
    | ⟨0, _⟩ => rfl
  unfold Cert.Gcn.biasRow
  refine ((shapeCast_addUnit_apply ![128] b _ (ix2 (0 : Fin 1) c)).trans ?_).symm
  exact congrArg b (funext fun d => by match d with | ⟨0, _⟩ => rfl)

/-- The maximum of that sum with the zero array is `reluAddRow`: the zero array reads the real 0 everywhere. -/
theorem ref_relu (a : Vec Ideal S50000x128 .f32) (b : Vec Ideal S128 .f32) :
    maximumf (addf a (broadcastInDim S50000x128 ![0, 1] bcast_S1x128_S50000x128_0_1 (broadcastInDim S1x128 ![1] bcast_S128_S1x128_1 b)))
        (broadcastInDim S50000x128 ![] bcast_S_S50000x128 (constant (F := Ideal) S_ .f32 0x00000000#32))
      = Cert.Gcn.reluAddRow a (Cert.Gcn.biasRow b) := by
  rw [ref_addRow, Cert.Gcn.reluAddRow_eq]
  funext i
  rw [maximumf_apply]
  refine congrArg (max (Cert.Gcn.addRow a (Cert.Gcn.biasRow b) i)) ?_
  refine (broadcastInDim_apply ![] bcast_S_S50000x128 _ i ix0 (fun d => d.elim0)).trans ?_
  rw [constant_apply, Ideal.ofBits_zero_f32]

/-! ## The reference's result -/

section AnyInstance
variable {F : FTy → Type} [FloatOps F]

/-- The reference's composed term, with each layer's graph side gathered into the shared chain: at any float
    instance the two are the same operations in the same order, so the equation holds by unfolding the names. -/
theorem res_chain (m : (ℓ : Loc nD τ sig) → Buf (Elt F) ℓ) (c : Dev nD) :
    Cert.ReferenceIdeal.ValueP.res_main_v90 (F := F) m c
      = addf (Cert.KernelIdeal.Chain.agg
          (Host.dotGeneral dot_S50000x128_S128x128_S50000x128_1_0_0_1_n_n none
            (maximumf (addf (Cert.KernelIdeal.Chain.agg
                (Host.dotGeneral dot_S50000x128_S128x128_S50000x128_1_0_0_1_n_n none (m ((c.tc : Thread nD τ).loc main_arg0)) (m ((c.tc : Thread nD τ).loc main_arg2)))
                (Cert.KernelIdeal.Chain.srcIdx (m ((c.tc : Thread nD τ).loc main_arg1))) (Cert.KernelIdeal.Chain.dstIdx (m ((c.tc : Thread nD τ).loc main_arg1)))
                (Cert.KernelIdeal.Chain.norm (Cert.KernelIdeal.Chain.srcIdx (m ((c.tc : Thread nD τ).loc main_arg1))) (Cert.KernelIdeal.Chain.dstIdx (m ((c.tc : Thread nD τ).loc main_arg1)))))
              (broadcastInDim S50000x128 ![0, 1] bcast_S1x128_S50000x128_0_1 (broadcastInDim S1x128 ![1] bcast_S128_S1x128_1 (m ((c.tc : Thread nD τ).loc main_arg3)))))
              (broadcastInDim S50000x128 ![] bcast_S_S50000x128 (constant S_ .f32 0x00000000#32)))
            (m ((c.tc : Thread nD τ).loc main_arg4)))
          (Cert.KernelIdeal.Chain.srcIdx (m ((c.tc : Thread nD τ).loc main_arg1))) (Cert.KernelIdeal.Chain.dstIdx (m ((c.tc : Thread nD τ).loc main_arg1)))
          (Cert.KernelIdeal.Chain.norm (Cert.KernelIdeal.Chain.srcIdx (m ((c.tc : Thread nD τ).loc main_arg1))) (Cert.KernelIdeal.Chain.dstIdx (m ((c.tc : Thread nD τ).loc main_arg1)))))
        (broadcastInDim S50000x128 ![0, 1] bcast_S1x128_S50000x128_0_1 (broadcastInDim S1x128 ![1] bcast_S128_S1x128_1 (m ((c.tc : Thread nD τ).loc main_arg5)))) := by
  unfold Cert.ReferenceIdeal.ValueP.res_main_v90 Cert.KernelIdeal.Chain.agg Cert.KernelIdeal.Chain.norm Cert.KernelIdeal.Chain.dinv
    Cert.KernelIdeal.Chain.deg Cert.KernelIdeal.Chain.wrap Cert.KernelIdeal.Chain.srcIdx Cert.KernelIdeal.Chain.dstIdx
  rfl

end AnyInstance

/-- THE REFERENCE'S VALUE: its result array is `gcn` of its six arguments. -/
theorem ref_value (m : (ℓ : Loc nD τ sig) → Buf (Elt Ideal) ℓ) (c : Dev nD) :
    Cert.ReferenceIdeal.ValueP.res_main_v90 (F := Ideal) m c
      = Cert.Gcn.gcn (m ((c.tc : Thread nD τ).loc main_arg0)) (m ((c.tc : Thread nD τ).loc main_arg1)) (m ((c.tc : Thread nD τ).loc main_arg2))
          (m ((c.tc : Thread nD τ).loc main_arg3)) (m ((c.tc : Thread nD τ).loc main_arg4)) (m ((c.tc : Thread nD τ).loc main_arg5)) := by
  rw [res_chain, ref_lin, ref_relu, ref_lin, ref_addRow]
  rfl

end Cert.Gcn.Ref

end
-- ==== Proof.lean ====
/-
  A two-layer graph convolution over 50000 nodes and 800000 edges, computed two ways, and the proof that the two
  agree on the extended reals.
      h   = relu (agg (x · W1) + b1),      out = agg (h · W2) + b2,
  where `agg` carries along every edge (self loops added) the source node's row scaled by
  1 / sqrt(deg source · deg destination) and sums what arrives at each node.
  The tiled program computes the two products and the two bias steps in four grids of 25 blocks of 2000 rows, and
  the graph side on the host; the reference computes everything on the host over whole arrays. At the ideal
  instance a narrowing of the float format is the identity and a block product accumulated into zero is the plain
  sum over the contraction, so each tiled stage leaves exactly the whole-array function the reference applies
  (`lin`, `reluAddRow`, `addRow`), block by block, the blocks tiling the rows; the graph side is the same chain of
  operations in both programs. Both results are therefore the one function `gcn` of the six arguments, and the two
  programs, run from memories that agree on the arguments, end with equal result arrays.
  No law beyond reading each operation at an index is used, so the finiteness of the inputs is never opened.
  The idealization rewrote no operation of the tiled program, so there is nothing to preserve.
-/
import proofs.«107226_j27633819583001_1_alg».proof.Defs
import proofs.«107226_j27633819583001_1_alg».proof.Proof.Gen.Kernel
import proofs.«107226_j27633819583001_1_alg».proof.Proof.Gen.Kernel.Skeleton
import proofs.«107226_j27633819583001_1_alg».proof.Proof.Gen.Kernel.Launch
import proofs.«107226_j27633819583001_1_alg».proof.Proof.Gen.Kernel.Points
import proofs.«107226_j27633819583001_1_alg».proof.Proof.Gen.Kernel.Frame
import proofs.«107226_j27633819583001_1_alg».proof.Proof.Gen.KernelIdeal
import proofs.«107226_j27633819583001_1_alg».proof.Proof.Gen.KernelIdeal.Skeleton
import proofs.«107226_j27633819583001_1_alg».proof.Proof.Gen.KernelIdeal.Launch
import proofs.«107226_j27633819583001_1_alg».proof.Proof.Gen.KernelIdeal.Points
import proofs.«107226_j27633819583001_1_alg».proof.Proof.Gen.KernelIdeal.Frame
import proofs.«107226_j27633819583001_1_alg».proof.Proof.Gen.ReferenceIdeal
import proofs.«107226_j27633819583001_1_alg».proof.Proof.Gen.Pre_finite_inputs
import proofs.«107226_j27633819583001_1_alg».proof.Proof.KernelRun
import proofs.«107226_j27633819583001_1_alg».proof.Proof.KernelValue
import proofs.«107226_j27633819583001_1_alg».proof.Proof.RefValue
import Idealize.ShloMosaic.Adequacy
import Idealize.ShloMosaic.Init

noncomputable section

namespace Cert.Proof

open Idealize.ShloMosaic Idealize.SL.Sem

/-- The tiled program runs, faults nowhere, and leaves its arguments as launched. -/
theorem frame_kernel : Cert.frame_Kernel := fun m ρ _ => Cert.Kernel.Gen.frame m ρ

/-- The same of the tiled program read at the ideal instance. -/
theorem frame_kernelIdeal : Cert.frame_KernelIdeal := fun m ρ _ => Cert.KernelIdeal.Gen.frame m ρ

/-- The reference runs, faults nowhere, and leaves its arguments as launched: its run with the value forgotten. -/
theorem frame_referenceIdeal : Cert.frame_ReferenceIdeal := fun m ρ _ =>
  (θ_run Cert.ReferenceIdeal.defs _ _).mono (fun _ h c => (h c).2) (Cert.ReferenceIdeal.ValueP.run (F := Ideal) m ρ)

/-- The idealization rewrote nothing. -/
theorem preserves : Cert.preserves_Kernel_KernelIdeal := trivial

/-- From memories that agree on the six arguments both programs end, the tiled one with its result array at `gcn` of
    its arguments and the reference with its result array at `gcn` of its own, which are the same arrays. -/
theorem algebraic : Cert.algebraic_KernelIdeal_ReferenceIdeal := by
  intro m ρ m' ρ' _ hagree
  refine ⟨fun c => Cert.Gcn.gcn (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)), ?_, ?_⟩
  · exact (θ_run Cert.KernelIdeal.defs _ _).mono
      (fun r h c => ⟨(h c).1.trans (Cert.KernelIdeal.Val.kernel_value m ρ c), (h c).2⟩)
      (Cert.KernelIdeal.GenRun.run_main m ρ)
  · refine (θ_run Cert.ReferenceIdeal.defs _ _).mono (fun r h c => ⟨(h c).1.trans ?_, (h c).2⟩)
      (Cert.ReferenceIdeal.ValueP.run (F := Ideal) m' ρ')
    rw [Cert.Gcn.Ref.ref_value m' c, (hagree c).1, (hagree c).2.1, (hagree c).2.2.1, (hagree c).2.2.2.1,
      (hagree c).2.2.2.2.1, (hagree c).2.2.2.2.2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
